-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000x4 : Shape := ⟨2, ![500000, 4]⟩
abbrev S50000x100 : Shape := ⟨2, ![50000, 100]⟩
abbrev S100x50000 : Shape := ⟨2, ![100, 50000]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x4 : S_.BroadcastsInDim S500000x4 (![] : Fin 0 → Fin S500000x4.rank)
  reducesTo_S500000x4_S_d0_1 : S500000x4.ReducesTo [0, 1] S_
  bcast_S_S50000x100 : S_.BroadcastsInDim S50000x100 (![] : Fin 0 → Fin S50000x100.rank)
  reducesTo_S50000x100_S_d0_1 : S50000x100.ReducesTo [0, 1] S_
  bcast_S_S100x50000 : S_.BroadcastsInDim S100x50000 (![] : Fin 0 → Fin S100x50000.rank)
  reducesTo_S100x50000_S_d0_1 : S100x50000.ReducesTo [0, 1] S_

variable [Facts]

def fn_part1 {F : FTy → Type} [FloatOps F] (main_v13 : IVec S_ 1) (main_v16 : IVec S100x50000 1) : IVec S_ 1 :=
  let main_c_5 : IVec S_ 1 := constantI S_ 1 1#1
  let main_v17 : IVec S_ 1 := (fun x v => Host.reduce IntOp.andi x v reducesTo_S100x50000_S_d0_1 h_S_) main_v16 main_c_5
  let main_v18 : IVec S_ 1 := andi main_v13 main_v17
  main_v18

def fn {F : FTy → Type} [FloatOps F] (main_arg0 : FVec F S100000x128 .f32) (main_arg1 : FVec F S500000x4 .f32) (main_arg2 : FVec F S50000x100 .f32) (main_arg3 : FVec F S100x50000 .f32) (main_arg4 : IVec S500000 32) (main_arg5 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x4 .f32 := Host.absf main_arg1
  let main_cst_0 : FVec F S_ .f32 := constant S_ .f32 0x7F800000#32
  let main_v5 : FVec F S500000x4 .f32 := broadcastInDim S500000x4 ![] bcast_S_S500000x4 main_cst_0
  let main_v6 : IVec S500000x4 1 := cmpf .olt main_v4 main_v5
  let main_c_1 : IVec S_ 1 := constantI S_ 1 1#1
  let main_v7 : IVec S_ 1 := (fun x v => Host.reduce IntOp.andi x v reducesTo_S500000x4_S_d0_1 h_S_) main_v6 main_c_1
  let main_v8 : IVec S_ 1 := andi main_v3 main_v7
  let main_v9 : FVec F S50000x100 .f32 := Host.absf main_arg2
  let main_cst_2 : FVec F S_ .f32 := constant S_ .f32 0x7F800000#32
  let main_v10 : FVec F S50000x100 .f32 := broadcastInDim S50000x100 ![] bcast_S_S50000x100 main_cst_2
  let main_v11 : IVec S50000x100 1 := cmpf .olt main_v9 main_v10
  let main_c_3 : IVec S_ 1 := constantI S_ 1 1#1
  let main_v12 : IVec S_ 1 := (fun x v => Host.reduce IntOp.andi x v reducesTo_S50000x100_S_d0_1 h_S_) main_v11 main_c_3
  let main_v13 : IVec S_ 1 := andi main_v8 main_v12
  let main_v14 : FVec F S100x50000 .f32 := Host.absf main_arg3
  let main_cst_4 : FVec F S_ .f32 := constant S_ .f32 0x7F800000#32
  let main_v15 : FVec F S100x50000 .f32 := broadcastInDim S100x50000 ![] bcast_S_S100x50000 main_cst_4
  let main_v16 : IVec S100x50000 1 := cmpf .olt main_v14 main_v15
  fn_part1 (F := F) main_v13 main_v16
-- ==== Kernel.lean ====
abbrev S100000x128 : Shape := ⟨2, ![100000, 128]⟩
abbrev S500000x4 : Shape := ⟨2, ![500000, 4]⟩
abbrev S50000x100 : Shape := ⟨2, ![50000, 100]⟩
abbrev S100x50000 : Shape := ⟨2, ![100, 50000]⟩
abbrev S500000 : Shape := ⟨1, ![500000]⟩
abbrev S4000x4 : Shape := ⟨2, ![4000, 4]⟩
abbrev S4000 : Shape := ⟨1, ![4000]⟩
abbrev S4000x1 : Shape := ⟨2, ![4000, 1]⟩
abbrev S_ : Shape := ⟨0, ![]⟩
abbrev S100000x4 : Shape := ⟨2, ![100000, 4]⟩
abbrev S500000x1 : Shape := ⟨2, ![500000, 1]⟩
abbrev S500000x128 : Shape := ⟨2, ![500000, 128]⟩
abbrev S4000x128 : Shape := ⟨2, ![4000, 128]⟩
abbrev S4000x32 : Shape := ⟨2, ![4000, 32]⟩

abbrev nBuf : Space → Nat
  | .hbm => 60
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S500000x4, .f32⟩
  | .hbm, ⟨2, _⟩ => ⟨S50000x100, .f32⟩
  | .hbm, ⟨3, _⟩ => ⟨S100x50000, .f32⟩
  | .hbm, ⟨4, _⟩ => ⟨S500000, .i32⟩
  | .hbm, ⟨5, _⟩ => ⟨S500000, .i32⟩
  | .hbm, ⟨6, _⟩ => ⟨S500000x4, .f32⟩
  | .hbm, ⟨7, _⟩ => ⟨S_, .f32⟩
  | .hbm, ⟨8, _⟩ => ⟨S100000x4, .f32⟩
  | .hbm, ⟨9, _⟩ => ⟨S500000x1, .i32⟩
  | .hbm, ⟨10, _⟩ => ⟨S100000x4, .f32⟩
  | .hbm, ⟨11, _⟩ => ⟨S_, .f32⟩
  | .hbm, ⟨12, _⟩ => ⟨S100000x4, .f32⟩
  | .hbm, ⟨13, _⟩ => ⟨S100000x4, .f32⟩
  | .hbm, ⟨14, _⟩ => ⟨S100000x4, .f32⟩
  | .hbm, ⟨15, _⟩ => ⟨S_, .f32⟩
  | .hbm, ⟨16, _⟩ => ⟨S100000x4, .f32⟩
  | .hbm, ⟨17, _⟩ => ⟨S100000x4, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x4, .f32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000x4, .f32⟩
  | .hbm, ⟨36, _⟩ => ⟨S_, .i32⟩
  | .hbm, ⟨37, _⟩ => ⟨S500000, .i32⟩
  | .hbm, ⟨38, _⟩ => ⟨S500000, .i1⟩
  | .hbm, ⟨39, _⟩ => ⟨S_, .i32⟩
  | .hbm, ⟨40, _⟩ => ⟨S500000, .i32⟩
  | .hbm, ⟨41, _⟩ => ⟨S500000, .i32⟩
  | .hbm, ⟨42, _⟩ => ⟨S500000, .i32⟩
  | .hbm, ⟨43, _⟩ => ⟨S500000x1, .i32⟩
  | .hbm, ⟨44, _⟩ => ⟨S500000x128, .f32⟩
  | .hbm, ⟨45, _⟩ => ⟨S500000x128, .f32⟩
  | .hbm, ⟨46, _⟩ => ⟨S_, .f32⟩
  | .hbm, ⟨47, _⟩ => ⟨S100000x128, .f32⟩
  | .hbm, ⟨48, _⟩ => ⟨S500000x1, .i32⟩
  | .hbm, ⟨49, _⟩ => ⟨S100000x128, .f32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x128, .f32⟩
  | .hbm, ⟨59, _⟩ => ⟨S500000x4, .f32⟩
  | .local _ .vmem, ⟨0, _⟩ => ⟨S4000x4, .f32⟩
  | .local _ .vmem, ⟨1, _⟩ => ⟨S4000x4, .f32⟩
  | .local _ .vmem, ⟨2, _⟩ => ⟨S4000x4, .f32⟩
  | .local _ .vmem, ⟨3, _⟩ => ⟨S4000x4, .f32⟩
  | .local _ .vmem, ⟨4, _⟩ => ⟨S4000x4, .f32⟩
  | .local _ .vmem, ⟨5, _⟩ => ⟨S4000x4, .f32⟩
  | .local _ .vmem, ⟨6, _⟩ => ⟨S4000x4, .f32⟩
  | .local _ .vmem, ⟨7, _⟩ => ⟨S4000x4, .f32⟩
  | .local _ .vmem, ⟨8, _⟩ => ⟨S4000x4, .f32⟩
  | .local _ .vmem, ⟨9, _⟩ => ⟨S4000x4, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x4, .f32⟩
  | .local _ .vmem, ⟨19, _⟩ => ⟨S4000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S4000x4_S4000x4_0_0 : ∀ a, (![0, 0] : Fin 2 → Nat) a + S4000x4.size a ≤ S4000x4.size a
  h_S4000x4 : 0 < S4000x4.numel
  reduces_S4000x4_S4000 : S4000x4.Reduces [1] S4000
  shapeCasts_S4000_S4000x1 : S4000.ShapeCasts S4000x1
  broadcasts_S4000x1_S4000x4 : S4000x1.Broadcasts S4000x4
  bcast_S_S100000x4 : S_.BroadcastsInDim S100000x4 (![] : Fin 0 → Fin S100000x4.rank)
  bcast_S500000_S500000x1_0 : S500000.BroadcastsInDim S500000x1 (![0] : Fin 1 → Fin S500000x1.rank)
  bcast_S_S500000 : S_.BroadcastsInDim S500000 (![] : Fin 0 → Fin S500000.rank)
  shapeCasts_S4000x4_S4000x4 : S4000x4.ShapeCasts S4000x4
  slices_S4000x4_o0_0_S4000x1 : S4000x4.Slices ![0, 0] S4000x1
  inb_S4000x128_S4000x32_0_0 : ∀ a, (![0, 0] : Fin 2 → Nat) a + S4000x32.size a ≤ S4000x128.size a
  h_S4000x32 : 0 < S4000x32.numel
  shapeCasts_S4000x32_S4000x32 : S4000x32.ShapeCasts S4000x32
  broadcasts_S4000x1_S4000x32 : S4000x1.Broadcasts S4000x32
  slices_S4000x4_o0_1_S4000x1 : S4000x4.Slices ![0, 1] S4000x1
  inb_S4000x128_S4000x32_0_32 : ∀ a, (![0, 32] : Fin 2 → Nat) a + S4000x32.size a ≤ S4000x128.size a
  slices_S4000x4_o0_2_S4000x1 : S4000x4.Slices ![0, 2] S4000x1
  inb_S4000x128_S4000x32_0_64 : ∀ a, (![0, 64] : Fin 2 → Nat) a + S4000x32.size a ≤ S4000x128.size a
  slices_S4000x4_o0_3_S4000x1 : S4000x4.Slices ![0, 3] S4000x1
  inb_S4000x128_S4000x32_0_96 : ∀ a, (![0, 96] : Fin 2 → Nat) a + S4000x32.size a ≤ S4000x128.size a
  bcast_S_S100000x128 : S_.BroadcastsInDim S100000x128 (![] : Fin 0 → Fin S100000x128.rank)
  reduces_S4000x32_S4000 : S4000x32.Reduces [1] S4000
  inb_S4000x4_S4000x1_0_0 : ∀ a, (![0, 0] : Fin 2 → Nat) a + S4000x1.size a ≤ S4000x4.size a
  h_S4000x1 : 0 < S4000x1.numel
  inb_S4000x4_S4000x1_0_1 : ∀ a, (![0, 1] : Fin 2 → Nat) a + S4000x1.size a ≤ S4000x4.size a
  inb_S4000x4_S4000x1_0_2 : ∀ a, (![0, 2] : Fin 2 → Nat) a + S4000x1.size a ≤ S4000x4.size a
  inb_S4000x4_S4000x1_0_3 : ∀ a, (![0, 3] : Fin 2 → Nat) a + S4000x1.size a ≤ S4000x4.size a
  scatter_S100000x4_S500000x1_S500000x4_1_0_0_1_wf : ScatterDims.WF S100000x4 S500000x1 S500000x4 [1] [0] [0] 1
  gather_S100000x4_S500000x1_S500000x4_1_0_n_n_0_1_14_wf : GatherDims.WF S100000x4 S500000x1 S500000x4 [1] [0] [] [0] [] 1 ![1, 4]
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x4.size a ≤ S500000x4.size a
  hwx0_0 : ∀ i : grid0.Coords, EltTy.bits .f32 = 32 ∨ (Rect.block (s := S500000x4) S4000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x4.size a ≤ S500000x4.size a
  hwx0_1 : ∀ i : grid0.Coords, EltTy.bits .f32 = 32 ∨ (Rect.block (s := S500000x4) S4000x4.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x4.size a ≤ S500000x4.size a
  hwx1_0 : ∀ i : grid1.Coords, EltTy.bits .f32 = 32 ∨ (Rect.block (s := S500000x4) S4000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x4.size a ≤ S500000x4.size a
  hwx1_1 : ∀ i : grid1.Coords, EltTy.bits .f32 = 32 ∨ (Rect.block (s := S500000x4) S4000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x4.size a ≤ S500000x4.size a
  hwx1_2 : ∀ i : grid1.Coords, EltTy.bits .f32 = 32 ∨ (Rect.block (s := S500000x4) S4000x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S500000x128.size a
  hwx1_3 : ∀ i : grid1.Coords, EltTy.bits .f32 = 32 ∨ (Rect.block (s := S500000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S500000x128.size a
  hwx1_4 : ∀ i : grid1.Coords, EltTy.bits .f32 = 32 ∨ (Rect.block (s := S500000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S500000x128.size a
  hwx2_0 : ∀ i : grid2.Coords, EltTy.bits .f32 = 32 ∨ (Rect.block (s := S500000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S500000x128.size a
  hwx2_1 : ∀ i : grid2.Coords, EltTy.bits .f32 = 32 ∨ (Rect.block (s := S500000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x4.size a ≤ S500000x4.size a
  hwx2_2 : ∀ i : grid2.Coords, EltTy.bits .f32 = 32 ∨ (Rect.block (s := S500000x4) S4000x4.size (cc2_transform_2 i) (hinb2_2 i)).WholeWords (EltTy.packing .f32)

variable [Facts₀]

def scatter_S100000x4_S500000x1_S500000x4_1_0_0_1 : ScatterDims S100000x4 S500000x1 S500000x4 where
  updateWindowDims := [1]
  insertedWindowDims := [0]
  scatterDimsToOperandDims := [0]
  indexVectorDim := 1
  wf := scatter_S100000x4_S500000x1_S500000x4_1_0_0_1_wf
def gather_S100000x4_S500000x1_S500000x4_1_0_n_n_0_1_14 : GatherDims S100000x4 S500000x1 S500000x4 where
  offsetDims := [1]
  collapsedSliceDims := [0]
  operandBatchingDims := []
  startIndicesBatchingDims := []
  startIndexMap := [0]
  indexVectorDim := 1
  sliceSizes := ![1, 4]
  wf := gather_S100000x4_S500000x1_S500000x4_1_0_n_n_0_1_14_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_arg1) S4000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S4000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S4000x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S4000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S500000x4 : Shape := ⟨2, ![500000, 4]⟩
abbrev S50000x100 : Shape := ⟨2, ![50000, 100]⟩
abbrev S100x50000 : Shape := ⟨2, ![100, 50000]⟩
abbrev S500000 : Shape := ⟨1, ![500000]⟩
abbrev S100000x4x32 : Shape := ⟨3, ![100000, 4, 32]⟩
abbrev S_ : Shape := ⟨0, ![]⟩
abbrev S500000x1 : Shape := ⟨2, ![500000, 1]⟩
abbrev S100000x4 : Shape := ⟨2, ![100000, 4]⟩
abbrev S500000x4x32 : Shape := ⟨3, ![500000, 4, 32]⟩
abbrev S500000x4x1 : Shape := ⟨3, ![500000, 4, 1]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000x4, .f32⟩
  | .hbm, ⟨2, _⟩ => ⟨S50000x100, .f32⟩
  | .hbm, ⟨3, _⟩ => ⟨S100x50000, .f32⟩
  | .hbm, ⟨4, _⟩ => ⟨S500000, .i32⟩
  | .hbm, ⟨5, _⟩ => ⟨S500000, .i32⟩
  | .hbm, ⟨6, _⟩ => ⟨S100000x4x32, .f32⟩
  | .hbm, ⟨7, _⟩ => ⟨S_, .f32⟩
  | .hbm, ⟨8, _⟩ => ⟨S500000, .f32⟩
  | .hbm, ⟨9, _⟩ => ⟨S_, .f32⟩
  | .hbm, ⟨10, _⟩ => ⟨S500000, .f32⟩
  | .hbm, ⟨11, _⟩ => ⟨S500000, .f32⟩
  | .hbm, ⟨12, _⟩ => ⟨S500000x1, .f32⟩
  | .hbm, ⟨13, _⟩ => ⟨S500000x4, .f32⟩
  | .hbm, ⟨14, _⟩ => ⟨S500000x4, .f32⟩
  | .hbm, ⟨15, _⟩ => ⟨S500000x4, .f32⟩
  | .hbm, ⟨16, _⟩ => ⟨S_, .f32⟩
  | .hbm, ⟨17, _⟩ => ⟨S500000, .f32⟩
  | .hbm, ⟨18, _⟩ => ⟨S500000x1, .f32⟩
  | .hbm, ⟨19, _⟩ => ⟨S500000x4, .f32⟩
  | .hbm, ⟨20, _⟩ => ⟨S500000x4, .f32⟩
  | .hbm, ⟨21, _⟩ => ⟨S_, .f32⟩
  | .hbm, ⟨22, _⟩ => ⟨S100000x4, .f32⟩
  | .hbm, ⟨23, _⟩ => ⟨S500000x1, .i32⟩
  | .hbm, ⟨24, _⟩ => ⟨S100000x4, .f32⟩
  | .hbm, ⟨25, _⟩ => ⟨S_, .f32⟩
  | .hbm, ⟨26, _⟩ => ⟨S100000x4, .f32⟩
  | .hbm, ⟨27, _⟩ => ⟨S100000x4, .f32⟩
  | .hbm, ⟨28, _⟩ => ⟨S100000x4, .f32⟩
  | .hbm, ⟨29, _⟩ => ⟨S_, .f32⟩
  | .hbm, ⟨30, _⟩ => ⟨S100000x4, .f32⟩
  | .hbm, ⟨31, _⟩ => ⟨S100000x4, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000x4, .f32⟩
  | .hbm, ⟨41, _⟩ => ⟨S500000x4, .f32⟩
  | .hbm, ⟨42, _⟩ => ⟨S_, .i32⟩
  | .hbm, ⟨43, _⟩ => ⟨S500000, .i32⟩
  | .hbm, ⟨44, _⟩ => ⟨S500000, .i1⟩
  | .hbm, ⟨45, _⟩ => ⟨S_, .i32⟩
  | .hbm, ⟨46, _⟩ => ⟨S500000, .i32⟩
  | .hbm, ⟨47, _⟩ => ⟨S500000, .i32⟩
  | .hbm, ⟨48, _⟩ => ⟨S500000, .i32⟩
  | .hbm, ⟨49, _⟩ => ⟨S500000x1, .i32⟩
  | .hbm, ⟨50, _⟩ => ⟨S500000x4, .f32⟩
  | .hbm, ⟨51, _⟩ => ⟨S500000x4, .f32⟩
  | .hbm, ⟨52, _⟩ => ⟨S_, .i32⟩
  | .hbm, ⟨53, _⟩ => ⟨S500000, .i32⟩
  | .hbm, ⟨54, _⟩ => ⟨S500000, .i1⟩
  | .hbm, ⟨55, _⟩ => ⟨S_, .i32⟩
  | .hbm, ⟨56, _⟩ => ⟨S500000, .i32⟩
  | .hbm, ⟨57, _⟩ => ⟨S500000, .i32⟩
  | .hbm, ⟨58, _⟩ => ⟨S500000, .i32⟩
  | .hbm, ⟨59, _⟩ => ⟨S500000x1, .i32⟩
  | .hbm, ⟨60, _⟩ => ⟨S500000x4x32, .f32⟩
  | .hbm, ⟨61, _⟩ => ⟨S500000x4x1, .f32⟩
  | .hbm, ⟨62, _⟩ => ⟨S500000x4x32, .f32⟩
  | .hbm, ⟨63, _⟩ => ⟨S500000x4x32, .f32⟩
  | .hbm, ⟨64, _⟩ => ⟨S_, .f32⟩
  | .hbm, ⟨65, _⟩ => ⟨S100000x4x32, .f32⟩
  | .hbm, ⟨66, _⟩ => ⟨S500000x1, .i32⟩
  | .hbm, ⟨67, _⟩ => ⟨S100000x4x32, .f32⟩
  | .hbm, ⟨68, _⟩ => ⟨S_, .i32⟩
  | .hbm, ⟨69, _⟩ => ⟨S500000, .i32⟩
  | .hbm, ⟨70, _⟩ => ⟨S500000, .i1⟩
  | .hbm, ⟨71, _⟩ => ⟨S_, .i32⟩
  | .hbm, ⟨72, _⟩ => ⟨S500000, .i32⟩
  | .hbm, ⟨73, _⟩ => ⟨S500000, .i32⟩
  | .hbm, ⟨74, _⟩ => ⟨S500000, .i32⟩
  | .hbm, ⟨75, _⟩ => ⟨S500000x1, .i32⟩
  | .hbm, ⟨76, _⟩ => ⟨S500000x4x32, .f32⟩
  | .hbm, ⟨77, _⟩ => ⟨S500000x4x32, .f32⟩
  | .hbm, ⟨78, _⟩ => ⟨S_, .f32⟩
  | .hbm, ⟨79, _⟩ => ⟨S500000x4, .f32⟩
  | .hbm, ⟨80, _⟩ => ⟨S500000x4x1, .f32⟩
  | .hbm, ⟨81, _⟩ => ⟨S500000x4x1, .f32⟩
  | .hbm, ⟨82, _⟩ => ⟨S_, .f32⟩
  | .hbm, ⟨83, _⟩ => ⟨S500000x4x1, .f32⟩
  | .hbm, ⟨84, _⟩ => ⟨S500000x4x1, .f32⟩
  | .hbm, ⟨85, _⟩ => ⟨S500000x4x32, .f32⟩
  | .hbm, ⟨86, _⟩ => ⟨S500000x4x32, .f32⟩
  | .hbm, ⟨87, _⟩ => ⟨S_, .i32⟩
  | .hbm, ⟨88, _⟩ => ⟨S500000, .i32⟩
  | .hbm, ⟨89, _⟩ => ⟨S500000, .i1⟩
  | .hbm, ⟨90, _⟩ => ⟨S_, .i32⟩
  | .hbm, ⟨91, _⟩ => ⟨S500000, .i32⟩
  | .hbm, ⟨92, _⟩ => ⟨S500000, .i32⟩
  | .hbm, ⟨93, _⟩ => ⟨S500000, .i32⟩
  | .hbm, ⟨94, _⟩ => ⟨S500000x1, .i32⟩
  | .hbm, ⟨95, _⟩ => ⟨S500000x4x32, .f32⟩
  | .hbm, ⟨96, _⟩ => ⟨S500000x4x32, .f32⟩
  | .hbm, ⟨97, _⟩ => ⟨S_, .f32⟩
  | .hbm, ⟨98, _⟩ => ⟨S500000x4, .f32⟩
  | .hbm, ⟨99, _⟩ => ⟨S500000x4x1, .f32⟩
  | .hbm, ⟨100, _⟩ => ⟨S500000x4x1, .f32⟩
  | .hbm, ⟨101, _⟩ => ⟨S_, .f32⟩
  | .hbm, ⟨102, _⟩ => ⟨S500000x4x1, .f32⟩
  | .hbm, ⟨103, _⟩ => ⟨S500000x4x1, .f32⟩
  | .hbm, ⟨104, _⟩ => ⟨S500000x4x32, .f32⟩
  | .hbm, ⟨105, _⟩ => ⟨S500000x4x32, .f32⟩
  | .hbm, ⟨106, _⟩ => ⟨S500000x4x32, .f32⟩
  | .hbm, ⟨107, _⟩ => ⟨S500000x4x32, .f32⟩
  | .hbm, ⟨108, _⟩ => ⟨S_, .f32⟩
  | .hbm, ⟨109, _⟩ => ⟨S500000x4, .f32⟩
  | .hbm, ⟨110, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_c_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_15 : Ref sig .tc := ⟨.hbm, 87, rfl⟩
abbrev main_v64 : Ref sig .tc := ⟨.hbm, 88, rfl⟩
abbrev main_v65 : Ref sig .tc := ⟨.hbm, 89, rfl⟩
abbrev main_c_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_18 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_19 : Ref sig .tc := ⟨.hbm, 108, rfl⟩
abbrev main_v81 : Ref sig .tc := ⟨.hbm, 109, rfl⟩
abbrev main_v82 : Ref sig .tc := ⟨.hbm, 110, rfl⟩

abbrev nD : Nat := 1
abbrev τ : Topo := Topo.v7x

variable {F : FTy → Type} [FloatOps F]

class Facts₀ : Prop where
  shapeCasts_S100000x128_S100000x4x32 : S100000x128.ShapeCasts S100000x4x32
  reducesTo_S500000x4_S500000_d1 : S500000x4.ReducesTo [1] S500000
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x4_0_1 : S500000x1.BroadcastsInDim S500000x4 (![0, 1] : Fin 2 → Fin S500000x4.rank)
  bcast_S_S100000x4 : S_.BroadcastsInDim S100000x4 (![] : Fin 0 → Fin S100000x4.rank)
  bcast_S500000x4_S500000x4x1_0_1 : S500000x4.BroadcastsInDim S500000x4x1 (![0, 1] : Fin 2 → Fin S500000x4x1.rank)
  bcast_S500000x4x1_S500000x4x32_0_1_2 : S500000x4x1.BroadcastsInDim S500000x4x32 (![0, 1, 2] : Fin 3 → Fin S500000x4x32.rank)
  bcast_S_S100000x4x32 : S_.BroadcastsInDim S100000x4x32 (![] : Fin 0 → Fin S100000x4x32.rank)
  reducesTo_S500000x4x32_S500000x4_d2 : S500000x4x32.ReducesTo [2] S500000x4
  bcast_S_S500000x4x1 : S_.BroadcastsInDim S500000x4x1 (![] : Fin 0 → Fin S500000x4x1.rank)
  shapeCasts_S100000x4x32_S100000x128 : S100000x4x32.ShapeCasts S100000x128
  scatter_S100000x4_S500000x1_S500000x4_1_0_0_1_wf : ScatterDims.WF S100000x4 S500000x1 S500000x4 [1] [0] [0] 1
  gather_S100000x4_S500000x1_S500000x4_1_0_n_n_0_1_14_wf : GatherDims.WF S100000x4 S500000x1 S500000x4 [1] [0] [] [0] [] 1 ![1, 4]
  gather_S100000x4x32_S500000x1_S500000x4x32_12_0_n_n_0_1_1432_wf : GatherDims.WF S100000x4x32 S500000x1 S500000x4x32 [1, 2] [0] [] [0] [] 1 ![1, 4, 32]
  scatter_S100000x4x32_S500000x1_S500000x4x32_12_0_0_1_wf : ScatterDims.WF S100000x4x32 S500000x1 S500000x4x32 [1, 2] [0] [0] 1

variable [Facts₀]

def scatter_S100000x4_S500000x1_S500000x4_1_0_0_1 : ScatterDims S100000x4 S500000x1 S500000x4 where
  updateWindowDims := [1]
  insertedWindowDims := [0]
  scatterDimsToOperandDims := [0]
  indexVectorDim := 1
  wf := scatter_S100000x4_S500000x1_S500000x4_1_0_0_1_wf
def gather_S100000x4_S500000x1_S500000x4_1_0_n_n_0_1_14 : GatherDims S100000x4 S500000x1 S500000x4 where
  offsetDims := [1]
  collapsedSliceDims := [0]
  operandBatchingDims := []
  startIndicesBatchingDims := []
  startIndexMap := [0]
  indexVectorDim := 1
  sliceSizes := ![1, 4]
  wf := gather_S100000x4_S500000x1_S500000x4_1_0_n_n_0_1_14_wf
def gather_S100000x4x32_S500000x1_S500000x4x32_12_0_n_n_0_1_1432 : GatherDims S100000x4x32 S500000x1 S500000x4x32 where
  offsetDims := [1, 2]
  collapsedSliceDims := [0]
  operandBatchingDims := []
  startIndicesBatchingDims := []
  startIndexMap := [0]
  indexVectorDim := 1
  sliceSizes := ![1, 4, 32]
  wf := gather_S100000x4x32_S500000x1_S500000x4x32_12_0_n_n_0_1_1432_wf
def scatter_S100000x4x32_S500000x1_S500000x4x32_12_0_0_1 : ScatterDims S100000x4x32 S500000x1 S500000x4x32 where
  updateWindowDims := [1, 2]
  insertedWindowDims := [0]
  scatterDimsToOperandDims := [0]
  indexVectorDim := 1
  wf := scatter_S100000x4x32_S500000x1_S500000x4x32_12_0_0_1_wf

class Facts : Prop extends Facts₀ where

variable [Facts]
-- ==== Proof.LibRowGather.lean ====
/-
  A row gather read at an index.

  `x[idx]` along axis 0 lowers to a `stablehlo.gather` whose start index map names axis 0 only, with that axis collapsed,
  every other operand axis an offset axis taken whole, and the start indices a column `[R, 1]`. For such dimension numbers
  result row `r` is operand row `idx[r, 0]` read signed and clamped into `[0, N − 1]`, and the remaining coordinates pass
  through unchanged. Stated for ANY record with those field values (the hypotheses are `rfl` at a printed record), at
  rank 2 (operand `[N, L]`) and rank 3 (operand `[N, A, B]`): the same row on both, so a gather commutes with
  a reshape of the trailing axes.
-/
import Idealize.ShloMosaic.PureOps.ShapeOps
import Idealize.ShloMosaic.Lib.ValueIdx

noncomputable section

namespace Cert.RowIndexed

open Idealize.ShloMosaic Idealize.ShloMosaic.ValueIdx

/-- The operand row a row gather reads for result row `r`: the start index `idx[r, 0]`, read signed and clamped into
    `[0, N − 1]`. -/
def clampRow (N : Nat) (hN : 0 < N) {R w : Nat} (idx : IVec ⟨2, ![R, 1]⟩ w) (r : Fin R) : Fin N :=
  ⟨min (idx (ix2 r (0 : Fin 1))).toInt.toNat (N - 1), by omega⟩

/-- A row gather from `[N, L]`: result `(r, l)` is the operand at `(clampRow r, l)`. -/
theorem gather_rows2 {α : Type} {N L R w : Nat} (hN : 0 < N)
    (d : GatherDims ⟨2, ![N, L]⟩ ⟨2, ![R, 1]⟩ ⟨2, ![R, L]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, L])
    (x : (⟨2, ![N, L]⟩ : Shape).Idx → α) (idx : IVec ⟨2, ![R, 1]⟩ w) (r : Fin R) (l : Fin L) :
    Host.gather d x idx (ix2 r l) = x (ix2 (clampRow N hN idx r) l) := by
  -- Make the dimension numbers literal: every field is its given value.
  obtain ⟨od, cd, ob, sb, sim, iv, ss, wf⟩ := d
  simp only at ho hc hb hsb hm hv hs
  subst ho hc hb hsb hm hv hs
  -- Both sides read `x`; compare the two operand indices axis by axis, as numbers.
  unfold Host.gather
  congr 1
  funext ax
  refine Fin.ext ?_
  match ax with
  | ⟨0, h0⟩ =>
    -- Axis 0 is collapsed (offset 0), not batching (batch 0), and named by the start index map: the coordinate is
    -- the clamped start, whose slice size is 1, read at the start-indices position `(r, 0)`.
    have hmem : (⟨0, h0⟩ : Fin 2) ∈ [(0 : Fin 2)] := List.mem_singleton.2 rfl
    show GatherDims.start _ (ix2 r l) idx ⟨0, h0⟩ + GatherDims.batchCoord _ (ix2 r l) ⟨0, h0⟩
        + GatherDims.offCoord _ (ix2 r l) ⟨0, h0⟩ = min (idx (ix2 r (0 : Fin 1))).toInt.toNat (N - 1)
    rw [GatherDims.batchCoord_eq_zero _ _ _ List.not_mem_nil,
      GatherDims.offCoord_eq_zero _ _ _ (fun h => ((GatherDims.mem_sKept _ _).1 h).1 hmem), Nat.add_zero]
    unfold GatherDims.start
    rw [dif_pos hmem]
    refine congrArg₂ min (congrArg (fun q => (idx q).toInt.toNat) ?_) rfl
    -- the start-indices position: the result's one batch axis gives its row, the index vector's axis component 0
    funext c
    refine Fin.ext ?_
    match c with
    | ⟨0, _⟩ => rfl
    | ⟨1, _⟩ => rfl
  | ⟨1, h1⟩ =>
    -- Axis 1 is not in the start index map (start 0) and not batching; it is the one kept axis, read off the
    -- result's offset axis 1.
    have hne : (⟨1, h1⟩ : Fin 2) ∉ [(0 : Fin 2)] := fun h => Nat.one_ne_zero (congrArg Fin.val (List.mem_singleton.1 h))
    show GatherDims.start _ (ix2 r l) idx ⟨1, h1⟩ + GatherDims.batchCoord _ (ix2 r l) ⟨1, h1⟩
        + GatherDims.offCoord _ (ix2 r l) ⟨1, h1⟩ = l.val
    rw [GatherDims.batchCoord_eq_zero _ _ _ List.not_mem_nil, Nat.add_zero]
    unfold GatherDims.start
    rw [dif_neg hne, Nat.zero_add]
    unfold GatherDims.offCoord
    rw [dif_pos ((GatherDims.mem_sKept _ _).2 ⟨hne, List.not_mem_nil⟩)]
    rfl

/-- A row gather from `[N, A, B]`: result `(r, a, b)` is the operand at `(clampRow r, a, b)`. -/
theorem gather_rows3 {α : Type} {N A B R w : Nat} (hN : 0 < N)
    (d : GatherDims ⟨3, ![N, A, B]⟩ ⟨2, ![R, 1]⟩ ⟨3, ![R, A, B]⟩)
    (ho : d.offsetDims = [1, 2]) (hc : d.collapsedSliceDims = [0]) (hb : d.operandBatchingDims = [])
    (hsb : d.startIndicesBatchingDims = []) (hm : d.startIndexMap = [0]) (hv : d.indexVectorDim = 1)
    (hs : d.sliceSizes = ![1, A, B])
    (x : (⟨3, ![N, A, B]⟩ : Shape).Idx → α) (idx : IVec ⟨2, ![R, 1]⟩ w) (r : Fin R) (a : Fin A) (b : Fin B) :
    Host.gather d x idx (ix3 r a b) = x (ix3 (clampRow N hN idx r) a b) := by
  -- As at rank 2: literal dimension numbers, then the operand index axis by axis.
  obtain ⟨od, cd, ob, sb, sim, iv, ss, wf⟩ := d
  simp only at ho hc hb hsb hm hv hs
  subst ho hc hb hsb hm hv hs
  unfold Host.gather
  congr 1
  funext ax
  refine Fin.ext ?_
  match ax with
  | ⟨0, h0⟩ =>
    -- the gathered axis: clamped start only
    have hmem : (⟨0, h0⟩ : Fin 3) ∈ [(0 : Fin 3)] := List.mem_singleton.2 rfl
    show GatherDims.start _ (ix3 r a b) idx ⟨0, h0⟩ + GatherDims.batchCoord _ (ix3 r a b) ⟨0, h0⟩
        + GatherDims.offCoord _ (ix3 r a b) ⟨0, h0⟩ = min (idx (ix2 r (0 : Fin 1))).toInt.toNat (N - 1)
    rw [GatherDims.batchCoord_eq_zero _ _ _ List.not_mem_nil,
      GatherDims.offCoord_eq_zero _ _ _ (fun h => ((GatherDims.mem_sKept _ _).1 h).1 hmem), Nat.add_zero]
    unfold GatherDims.start
    rw [dif_pos hmem]
    refine congrArg₂ min (congrArg (fun q => (idx q).toInt.toNat) ?_) rfl
    funext c
    refine Fin.ext ?_
    match c with
    | ⟨0, _⟩ => rfl
    | ⟨1, _⟩ => rfl
  | ⟨1, h1⟩ =>
    -- first kept axis: the result's offset axis 1
    have hne : (⟨1, h1⟩ : Fin 3) ∉ [(0 : Fin 3)] := fun h => Nat.one_ne_zero (congrArg Fin.val (List.mem_singleton.1 h))
    show GatherDims.start _ (ix3 r a b) idx ⟨1, h1⟩ + GatherDims.batchCoord _ (ix3 r a b) ⟨1, h1⟩
        + GatherDims.offCoord _ (ix3 r a b) ⟨1, h1⟩ = a.val
    rw [GatherDims.batchCoord_eq_zero _ _ _ List.not_mem_nil, Nat.add_zero]
    unfold GatherDims.start
    rw [dif_neg hne, Nat.zero_add]
    unfold GatherDims.offCoord
    rw [dif_pos ((GatherDims.mem_sKept _ _).2 ⟨hne, List.not_mem_nil⟩)]
    rfl
  | ⟨2, h2⟩ =>
    -- second kept axis: the result's offset axis 2
    have hne : (⟨2, h2⟩ : Fin 3) ∉ [(0 : Fin 3)] := fun h => Nat.succ_ne_zero 1 (congrArg Fin.val (List.mem_singleton.1 h))
    show GatherDims.start _ (ix3 r a b) idx ⟨2, h2⟩ + GatherDims.batchCoord _ (ix3 r a b) ⟨2, h2⟩
        + GatherDims.offCoord _ (ix3 r a b) ⟨2, h2⟩ = b.val
    rw [GatherDims.batchCoord_eq_zero _ _ _ List.not_mem_nil, Nat.add_zero]
    unfold GatherDims.start
    rw [dif_neg hne, Nat.zero_add]
    unfold GatherDims.offCoord
    rw [dif_pos ((GatherDims.mem_sKept _ _).2 ⟨hne, List.not_mem_nil⟩)]
    rfl

end Cert.RowIndexed

end
-- ==== Proof.LibRowScatter.lean ====
/-
  A row scatter-add read at an index, on the extended reals.

  `segment_sum(u, idx, N)` lowers to a `stablehlo.scatter` with an `add` body whose scatter indices are a column
  `[R, 1]` naming operand axis 0 (inserted), every other operand axis a window axis taken whole. Update row `r` lands
  on operand row `idx[r, 0]` read signed and NOT clamped; a row outside `[0, N)` is dropped. At the ideal instance the
  result at `(n, l)` is the operand there plus the sum of `u (r, l)` over the update rows `r` that land on `n`. Stated
  for ANY record with those field values, at rank 2 (`[N, L]`) and rank 3 (`[N, A, B]`): the same set of rows on both,
  so the scatter-add commutes with a reshape of the trailing axes.
-/
import Idealize.ShloMosaic.PureOps.Ideal
import Idealize.ShloMosaic.Lib.ValueIdx

noncomputable section

namespace Cert.RowIndexed

open Idealize.ShloMosaic Idealize.ShloMosaic.ValueIdx

/-- The operand row update row `r` lands on: `idx[r, 0]` read signed when it is in `[0, N)`, nothing otherwise. -/
def rowTarget (N : Nat) {R w : Nat} (idx : IVec ⟨2, ![R, 1]⟩ w) (r : Fin R) : Option (Fin N) :=
  if h : 0 ≤ (idx (ix2 r (0 : Fin 1))).toInt ∧ (idx (ix2 r (0 : Fin 1))).toInt < (N : Int) then
    some ⟨(idx (ix2 r (0 : Fin 1))).toInt.toNat, by omega⟩
  else none

/-- An update index lands on operand index `i` exactly when, on every operand axis, start plus window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h
    split at h
    · rename_i hc
      have hi := Option.some.inj h
      intro a
      have hc' := hc a
      rw [← hi]
      show _ = ((Int.toNat _ : Nat) : Int)
      omega
    · cases h
  · intro h
    have hc : ∀ a, 0 ≤ d.start j idx a + d.window j a ∧ d.start j idx a + d.window j a < s.size a := by
      intro a
      have h1 := h a
      have h2 := (i a).isLt
      omega
    rw [dif_pos hc]
    refine congrArg some (funext fun a => Fin.ext ?_)
    show Int.toNat _ = (i a).val
    have h1 := h a
    omega

/-- Row `r` lands on `n` exactly when its index word, read signed, is `n`. -/
private theorem rowTarget_eq_some_iff {N R w : Nat} (idx : IVec ⟨2, ![R, 1]⟩ w) (r : Fin R) (n : Fin N) :
    rowTarget N idx r = some n ↔ (idx (ix2 r (0 : Fin 1))).toInt = (n.val : Int) := by
  unfold rowTarget
  have hn := n.isLt
  split
  · rw [Option.some.injEq, Fin.ext_iff]
    show Int.toNat _ = n.val ↔ _
    omega
  · rename_i h
    constructor
    · intro h'; cases h'
    · intro h'; exact absurd ⟨by omega, by omega⟩ h

/-- The rank-2 row scatter's dimension numbers as a literal record. -/
private abbrev rows2 {N L R : Nat} (wf : ScatterDims.WF ⟨2, ![N, L]⟩ ⟨2, ![R, 1]⟩ ⟨2, ![R, L]⟩ [1] [0] [0] 1) :
    ScatterDims ⟨2, ![N, L]⟩ ⟨2, ![R, 1]⟩ ⟨2, ![R, L]⟩ := ⟨[1], [0], [0], 1, wf⟩

/-- A record with those field values is that literal record. -/
private theorem eq_rows2 {N L R : Nat} (d : ScatterDims ⟨2, ![N, L]⟩ ⟨2, ![R, 1]⟩ ⟨2, ![R, L]⟩)
    (hu : d.updateWindowDims = [1]) (hi : d.insertedWindowDims = [0]) (hsd : d.scatterDimsToOperandDims = [0])
    (hv : d.indexVectorDim = 1) : ∃ wf, d = rows2 wf := by
  obtain ⟨uw, iw, sd, iv, wf⟩ := d
  dsimp only at hu hi hsd hv
  subst hu hi hsd hv
  exact ⟨wf, rfl⟩

section Rank2
variable {N L R w : Nat} (wf : ScatterDims.WF ⟨2, ![N, L]⟩ ⟨2, ![R, 1]⟩ ⟨2, ![R, L]⟩ [1] [0] [0] 1)
  (idx : IVec ⟨2, ![R, 1]⟩ w) (r : Fin R) (l' : Fin L)

/-- Axis 0 is the scattered axis: its start is row `r`'s index word read signed. -/
private theorem rows2_start0 : (rows2 wf).start (ix2 r l') idx 0 = (idx (ix2 r (0 : Fin 1))).toInt := by
  unfold ScatterDims.start
  rw [dif_pos (List.mem_singleton.mpr rfl)]
  refine congrArg (fun t => (idx t).toInt) (funext fun b => ?_)
  match b with
  | ⟨0, _⟩ => rfl
  | ⟨1, _⟩ => rfl

/-- Axis 1 is not named by the map: its start is zero. -/
private theorem rows2_start1 : (rows2 wf).start (ix2 r l') idx 1 = 0 := by
  unfold ScatterDims.start
  exact dif_neg (show (1 : Fin 2) ∉ ([0] : List (Fin 2)) from by decide)

/-- Axis 0 is inserted: its window coordinate is zero. -/
private theorem rows2_window0 : (rows2 wf).window (ix2 r l') 0 = 0 := by
  unfold ScatterDims.window
  exact dif_neg (show (0 : Fin 2) ∉ (List.finRange 2).filter (· ∉ ([0] : List (Fin 2))) from by decide)

/-- Axis 1 is the window axis taken whole: its window coordinate is the update's column. -/
private theorem rows2_window1 : (rows2 wf).window (ix2 r l') 1 = l'.val := by
  unfold ScatterDims.window
  exact (dif_pos (show (1 : Fin 2) ∈ (List.finRange 2).filter (· ∉ ([0] : List (Fin 2))) from by decide)).trans rfl

/-- Update `(r, l')` lands on `(n, l)` exactly when row `r` lands on `n` and the columns agree. -/
private theorem rows2_lands (n : Fin N) (l : Fin L) :
    (rows2 wf).resultIdx? (ix2 r l') idx = some (ix2 n l) ↔ rowTarget N idx r = some n ∧ l' = l := by
  rw [resultIdx?_eq_some_iff, rowTarget_eq_some_iff]
  constructor
  · intro h
    have h0 := h 0
    have h1 := h 1
    rw [rows2_start0, rows2_window0] at h0
    rw [rows2_start1, rows2_window1] at h1
    change _ = (n.val : Int) at h0
    change _ = (l.val : Int) at h1
    exact ⟨by omega, Fin.ext (by omega)⟩
  · rintro ⟨h0, rfl⟩ a
    match a with
    | ⟨0, _⟩ =>
      show (rows2 wf).start (ix2 r l') idx 0 + ((rows2 wf).window (ix2 r l') 0 : Int) = (n.val : Int)
      rw [rows2_start0, rows2_window0]; omega
    | ⟨1, _⟩ =>
      show (rows2 wf).start (ix2 r l') idx 1 + ((rows2 wf).window (ix2 r l') 1 : Int) = (l'.val : Int)
      rw [rows2_start1, rows2_window1]; omega

end Rank2

/-- A row scatter-add into `[N, L]` at `(n, l)`: the operand there plus the updates of the rows landing on `n`. -/
theorem scatterAdd_rows2 {N L R w : Nat} (d : ScatterDims ⟨2, ![N, L]⟩ ⟨2, ![R, 1]⟩ ⟨2, ![R, L]⟩)
    (hu : d.updateWindowDims = [1]) (hi : d.insertedWindowDims = [0]) (hsd : d.scatterDimsToOperandDims = [0])
    (hv : d.indexVectorDim = 1)
    (x : (⟨2, ![N, L]⟩ : Shape).Idx → EReal) (idx : IVec ⟨2, ![R, 1]⟩ w) (upd : (⟨2, ![R, L]⟩ : Shape).Idx → EReal)
    (n : Fin N) (l : Fin L) :
    Ideal.hostScatterAdd d x idx upd (ix2 n l)
      = x (ix2 n l) + ∑ r ∈ Finset.univ.filter (fun r : Fin R => rowTarget N idx r = some n), upd (ix2 r l) := by
  obtain ⟨wf, rfl⟩ := eq_rows2 d hu hi hsd hv
  unfold Ideal.hostScatterAdd
  refine congrArg (x (ix2 n l) + ·) ?_
  -- the updates landing on `(n, l)` are the `(r, l)` with row `r` landing on `n`: re-index by the row
  refine Finset.sum_nbij' (fun j => (⟨(j 0).val, idx2_lt0 j⟩ : Fin R)) (fun r => ix2 r l) ?_ ?_ ?_ ?_ ?_
  · intro j hj
    obtain ⟨r, l', rfl⟩ : ∃ (r : Fin R) (l' : Fin L), j = ix2 r l' := ⟨_, _, eq_ix2 j⟩
    have h := (rows2_lands wf idx r l' n l).mp (Finset.mem_filter.mp hj).2
    exact Finset.mem_filter.mpr ⟨Finset.mem_univ _, h.1⟩
  · intro r hr
    exact Finset.mem_filter.mpr
      ⟨Finset.mem_univ _, (rows2_lands wf idx r l n l).mpr ⟨(Finset.mem_filter.mp hr).2, rfl⟩⟩
  · intro j hj
    obtain ⟨r, l', rfl⟩ : ∃ (r : Fin R) (l' : Fin L), j = ix2 r l' := ⟨_, _, eq_ix2 j⟩
    obtain ⟨-, rfl⟩ := (rows2_lands wf idx r l' n l).mp (Finset.mem_filter.mp hj).2
    rfl
  · intro r _
    rfl
  · intro j hj
    obtain ⟨r, l', rfl⟩ : ∃ (r : Fin R) (l' : Fin L), j = ix2 r l' := ⟨_, _, eq_ix2 j⟩
    obtain ⟨-, rfl⟩ := (rows2_lands wf idx r l' n l).mp (Finset.mem_filter.mp hj).2
    rfl

/-- The rank-3 row scatter's dimension numbers as a literal record. -/
private abbrev rows3 {N A B R : Nat}
    (wf : ScatterDims.WF ⟨3, ![N, A, B]⟩ ⟨2, ![R, 1]⟩ ⟨3, ![R, A, B]⟩ [1, 2] [0] [0] 1) :
    ScatterDims ⟨3, ![N, A, B]⟩ ⟨2, ![R, 1]⟩ ⟨3, ![R, A, B]⟩ := ⟨[1, 2], [0], [0], 1, wf⟩

/-- A record with those field values is that literal record. -/
private theorem eq_rows3 {N A B R : Nat} (d : ScatterDims ⟨3, ![N, A, B]⟩ ⟨2, ![R, 1]⟩ ⟨3, ![R, A, B]⟩)
    (hu : d.updateWindowDims = [1, 2]) (hi : d.insertedWindowDims = [0]) (hsd : d.scatterDimsToOperandDims = [0])
    (hv : d.indexVectorDim = 1) : ∃ wf, d = rows3 wf := by
  obtain ⟨uw, iw, sd, iv, wf⟩ := d
  dsimp only at hu hi hsd hv
  subst hu hi hsd hv
  exact ⟨wf, rfl⟩

section Rank3
variable {N A B R w : Nat} (wf : ScatterDims.WF ⟨3, ![N, A, B]⟩ ⟨2, ![R, 1]⟩ ⟨3, ![R, A, B]⟩ [1, 2] [0] [0] 1)
  (idx : IVec ⟨2, ![R, 1]⟩ w) (r : Fin R) (a' : Fin A) (b' : Fin B)

/-- Axis 0 is the scattered axis: its start is row `r`'s index word read signed. -/
private theorem rows3_start0 : (rows3 wf).start (ix3 r a' b') idx 0 = (idx (ix2 r (0 : Fin 1))).toInt := by
  unfold ScatterDims.start
  rw [dif_pos (List.mem_singleton.mpr rfl)]
  refine congrArg (fun t => (idx t).toInt) (funext fun c => ?_)
  match c with
  | ⟨0, _⟩ => rfl
  | ⟨1, _⟩ => rfl

/-- Axes 1 and 2 are not named by the map: their starts are zero. -/
private theorem rows3_start1 : (rows3 wf).start (ix3 r a' b') idx 1 = 0 := by
  unfold ScatterDims.start
  exact dif_neg (show (1 : Fin 3) ∉ ([0] : List (Fin 3)) from by decide)

private theorem rows3_start2 : (rows3 wf).start (ix3 r a' b') idx 2 = 0 := by
  unfold ScatterDims.start
  exact dif_neg (show (2 : Fin 3) ∉ ([0] : List (Fin 3)) from by decide)

/-- Axis 0 is inserted: its window coordinate is zero. -/
private theorem rows3_window0 : (rows3 wf).window (ix3 r a' b') 0 = 0 := by
  unfold ScatterDims.window
  exact dif_neg (show (0 : Fin 3) ∉ (List.finRange 3).filter (· ∉ ([0] : List (Fin 3))) from by decide)

/-- Axes 1 and 2 are the window axes taken whole: their window coordinates are the update's. -/
private theorem rows3_window1 : (rows3 wf).window (ix3 r a' b') 1 = a'.val := by
  unfold ScatterDims.window
  exact (dif_pos (show (1 : Fin 3) ∈ (List.finRange 3).filter (· ∉ ([0] : List (Fin 3))) from by decide)).trans rfl

private theorem rows3_window2 : (rows3 wf).window (ix3 r a' b') 2 = b'.val := by
  unfold ScatterDims.window
  exact (dif_pos (show (2 : Fin 3) ∈ (List.finRange 3).filter (· ∉ ([0] : List (Fin 3))) from by decide)).trans rfl

/-- Update `(r, a', b')` lands on `(n, a, b)` exactly when row `r` lands on `n` and the trailing coordinates agree. -/
private theorem rows3_lands (n : Fin N) (a : Fin A) (b : Fin B) :
    (rows3 wf).resultIdx? (ix3 r a' b') idx = some (ix3 n a b) ↔ rowTarget N idx r = some n ∧ a' = a ∧ b' = b := by
  rw [resultIdx?_eq_some_iff, rowTarget_eq_some_iff]
  constructor
  · intro h
    have h0 := h 0
    have h1 := h 1
    have h2 := h 2
    rw [rows3_start0, rows3_window0] at h0
    rw [rows3_start1, rows3_window1] at h1
    rw [rows3_start2, rows3_window2] at h2
    change _ = (n.val : Int) at h0
    change _ = (a.val : Int) at h1
    change _ = (b.val : Int) at h2
    exact ⟨by omega, Fin.ext (by omega), Fin.ext (by omega)⟩
  · rintro ⟨h0, rfl, rfl⟩ c
    match c with
    | ⟨0, _⟩ =>
      show (rows3 wf).start (ix3 r a' b') idx 0 + ((rows3 wf).window (ix3 r a' b') 0 : Int) = (n.val : Int)
      rw [rows3_start0, rows3_window0]; omega
    | ⟨1, _⟩ =>
      show (rows3 wf).start (ix3 r a' b') idx 1 + ((rows3 wf).window (ix3 r a' b') 1 : Int) = (a'.val : Int)
      rw [rows3_start1, rows3_window1]; omega
    | ⟨2, _⟩ =>
      show (rows3 wf).start (ix3 r a' b') idx 2 + ((rows3 wf).window (ix3 r a' b') 2 : Int) = (b'.val : Int)
      rw [rows3_start2, rows3_window2]; omega

end Rank3

/-- A row scatter-add into `[N, A, B]` at `(n, a, b)`: the operand there plus the updates of the rows landing on `n`. -/
theorem scatterAdd_rows3 {N A B R w : Nat} (d : ScatterDims ⟨3, ![N, A, B]⟩ ⟨2, ![R, 1]⟩ ⟨3, ![R, A, B]⟩)
    (hu : d.updateWindowDims = [1, 2]) (hi : d.insertedWindowDims = [0]) (hsd : d.scatterDimsToOperandDims = [0])
    (hv : d.indexVectorDim = 1)
    (x : (⟨3, ![N, A, B]⟩ : Shape).Idx → EReal) (idx : IVec ⟨2, ![R, 1]⟩ w) (upd : (⟨3, ![R, A, B]⟩ : Shape).Idx → EReal)
    (n : Fin N) (a : Fin A) (b : Fin B) :
    Ideal.hostScatterAdd d x idx upd (ix3 n a b)
      = x (ix3 n a b) + ∑ r ∈ Finset.univ.filter (fun r : Fin R => rowTarget N idx r = some n), upd (ix3 r a b) := by
  obtain ⟨wf, rfl⟩ := eq_rows3 d hu hi hsd hv
  unfold Ideal.hostScatterAdd
  refine congrArg (x (ix3 n a b) + ·) ?_
  -- the updates landing on `(n, a, b)` are the `(r, a, b)` with row `r` landing on `n`: re-index by the row
  refine Finset.sum_nbij' (fun j => (⟨(j 0).val, (j 0).isLt⟩ : Fin R)) (fun r => ix3 r a b) ?_ ?_ ?_ ?_ ?_
  · intro j hj
    obtain ⟨r, a', b', rfl⟩ : ∃ (r : Fin R) (a' : Fin A) (b' : Fin B), j = ix3 r a' b' := ⟨_, _, _, eq_ix3 j⟩
    have h := (rows3_lands wf idx r a' b' n a b).mp (Finset.mem_filter.mp hj).2
    exact Finset.mem_filter.mpr ⟨Finset.mem_univ _, h.1⟩
  · intro r hr
    exact Finset.mem_filter.mpr
      ⟨Finset.mem_univ _, (rows3_lands wf idx r a b n a b).mpr ⟨(Finset.mem_filter.mp hr).2, rfl, rfl⟩⟩
  · intro j hj
    obtain ⟨r, a', b', rfl⟩ : ∃ (r : Fin R) (a' : Fin A) (b' : Fin B), j = ix3 r a' b' := ⟨_, _, _, eq_ix3 j⟩
    obtain ⟨-, rfl, rfl⟩ := (rows3_lands wf idx r a' b' n a b).mp (Finset.mem_filter.mp hj).2
    rfl
  · intro r _
    rfl
  · intro j hj
    obtain ⟨r, a', b', rfl⟩ : ∃ (r : Fin R) (a' : Fin A) (b' : Fin B), j = ix3 r a' b' := ⟨_, _, _, eq_ix3 j⟩
    obtain ⟨-, rfl, rfl⟩ := (rows3_lands wf idx r a' b' n a b).mp (Finset.mem_filter.mp hj).2
    rfl

end Cert.RowIndexed

end
-- ==== Proof.Routing.lean ====
/-
  One round of capsule routing over a graph, as functions of the argument arrays on the extended reals.

  500000 edges, 100000 nodes, 4 capsules of 32 components (a feature row is 128 wide: capsule `c` owns lanes
  `32 c … 32 c + 31`). An edge's four logits are softmaxed; the softmax weights are summed per source node (the node's
  degree per capsule), floored, and `1 / sqrt` taken; an edge's weight is its softmax weight times that inverse at its
  source and at its target; the edge's message is the target's feature row scaled, capsule by capsule, by the weight;
  messages are summed per source node (first result); and each edge's new logit for capsule `c` is the dot product over
  the 32 components of the L2-normalised message row at its source with `tanh` of the L2-normalised feature row at its
  target (second result). Rows are picked by index columns `[500000, 1]`: a pick clamps the index into range
  (`RowIndexed.clampRow`), a sum per node drops an index outside the range (`RowIndexed.rowTarget`).
-/
import Idealize.ShloMosaic.PureOps.Ideal
import Idealize.ShloMosaic.Lib.ValueIdx
import proofs.«134220_j71279277244617_1_alg».proof.Proof.LibRowGather
import proofs.«134220_j71279277244617_1_alg».proof.Proof.LibRowScatter

noncomputable section

namespace Cert.Routing

open Idealize.ShloMosaic Idealize.ShloMosaic.ValueIdx

/-- Per-edge capsule weights, per-edge feature rows, per-node capsule weights, per-node feature rows, an index column. -/
abbrev EC : Shape := ⟨2, ![500000, 4]⟩
abbrev EF : Shape := ⟨2, ![500000, 128]⟩
abbrev NC : Shape := ⟨2, ![100000, 4]⟩
abbrev NF : Shape := ⟨2, ![100000, 128]⟩
abbrev E1 : Shape := ⟨2, ![500000, 1]⟩

/-- The two coordinates of a rank-2 index at their literal extents. -/
abbrev rowOf {n0 n1 : Nat} (i : (⟨2, ![n0, n1]⟩ : Shape).Idx) : Fin n0 := ⟨(i 0).val, idx2_lt0 i⟩
abbrev colOf {n0 n1 : Nat} (i : (⟨2, ![n0, n1]⟩ : Shape).Idx) : Fin n1 := ⟨(i 1).val, idx2_lt1 i⟩

/-- The capsule that owns a feature lane, and capsule `c`'s `d`-th lane. -/
abbrev capOf (j : Fin 128) : Fin 4 := ⟨j.val / 32, by omega⟩
abbrev lane (c : Fin 4) (d : Fin 32) : Fin 128 := ⟨32 * c.val + d.val, by omega⟩

/-- The largest of an edge's four logits, taken from −∞. -/
def rowMax (a : EC.Idx → EReal) (e : Fin 500000) : EReal :=
  (Finset.univ : Finset (Fin 4)).fold max (Ideal.ofBits .f32 0xFF800000#32) (fun k => a (ix2 e k))

/-- The softmax of an edge's four logits, shifted by their maximum. -/
def softmax (a : EC.Idx → EReal) : EC.Idx → EReal := fun i =>
  Ideal.div (Ideal.exp (a i - rowMax a (rowOf i)))
    (∑ k : Fin 4, Ideal.exp (a (ix2 (rowOf i) k) - rowMax a (rowOf i)))

/-- Rows of `x` picked by an index column, the index clamped into range. -/
def takeRows {N L : Nat} (hN : 0 < N) (x : (⟨2, ![N, L]⟩ : Shape).Idx → EReal) (idx : IVec E1 32) :
    (⟨2, ![500000, L]⟩ : Shape).Idx → EReal :=
  fun i => x (ix2 (RowIndexed.clampRow N hN idx (rowOf i)) (colOf i))

/-- Rows of `u` summed, from zero, into the rows an index column names; a row named outside the range is dropped. -/
def sumRows (N : Nat) {L : Nat} (idx : IVec E1 32) (u : (⟨2, ![500000, L]⟩ : Shape).Idx → EReal) :
    (⟨2, ![N, L]⟩ : Shape).Idx → EReal :=
  fun i => Ideal.ofBits .f32 0x00000000#32
    + ∑ r ∈ Finset.univ.filter (fun r : Fin 500000 => RowIndexed.rowTarget N idx r = some (rowOf i)), u (ix2 r (colOf i))

/-- `1 / sqrt` of a node's degree per capsule (the softmax weights of the edges leaving it, summed), the degree floored. -/
def invSqrtDeg (src : IVec E1 32) (p : EC.Idx → EReal) : NC.Idx → EReal := fun i =>
  Ideal.div (Ideal.ofBits .f32 0x3F800000#32)
    (Ideal.sqrt (max (sumRows 100000 src p i) (Ideal.ofBits .f32 0x322BCC77#32)))

/-- An edge's message: the picked feature row, each capsule's 32 lanes scaled by `(p · s) · t` at that capsule. -/
def edgeVal (p s t : EC.Idx → EReal) (x : EF.Idx → EReal) : EF.Idx → EReal := fun i =>
  x i * ((p (ix2 (rowOf i) (capOf (colOf i))) * s (ix2 (rowOf i) (capOf (colOf i))))
    * t (ix2 (rowOf i) (capOf (colOf i))))

/-- The squared length of capsule `c`'s 32 components of row `e`. -/
def sqNorm (v : EF.Idx → EReal) (e : Fin 500000) (c : Fin 4) : EReal :=
  ∑ d : Fin 32, v (ix2 e (lane c d)) * v (ix2 e (lane c d))

/-- Component `d` of capsule `c` of row `e`, divided by the capsule's length floored. -/
def unitAt (v : EF.Idx → EReal) (e : Fin 500000) (c : Fin 4) (d : Fin 32) : EReal :=
  Ideal.div (v (ix2 e (lane c d))) (max (Ideal.sqrt (sqNorm v e c)) (Ideal.ofBits .f32 0x2B8CBCCC#32))

/-- Per edge and capsule: the dot product of the normalised `h` row with `tanh` of the normalised `x` row. -/
def combine (h x : EF.Idx → EReal) : EC.Idx → EReal := fun i =>
  ∑ d : Fin 32, unitAt h (rowOf i) (colOf i) d * Ideal.tanh (unitAt x (rowOf i) (colOf i) d)

/-- FIRST RESULT: the messages summed per source node. `src` is the source column as given (it names where a sum
    lands), `srcW` / `trgW` the source / target columns with a negative index wrapped (they pick rows). -/
def messages (x : NF.Idx → EReal) (e : EC.Idx → EReal) (src srcW trgW : IVec E1 32) : NF.Idx → EReal :=
  sumRows 100000 src
    (edgeVal (softmax e) (takeRows (by decide) (invSqrtDeg src (softmax e)) srcW)
      (takeRows (by decide) (invSqrtDeg src (softmax e)) trgW) (takeRows (by decide) x trgW))

/-- SECOND RESULT: each edge's new capsule logits. -/
def newWeights (x : NF.Idx → EReal) (e : EC.Idx → EReal) (src srcW trgW : IVec E1 32) : EC.Idx → EReal :=
  combine (takeRows (by decide) (messages x e src srcW trgW) srcW) (takeRows (by decide) x trgW)

end Cert.Routing

end
-- ==== Proof.SoftmaxRegion.lean ====
/-
  The first region on the extended reals: 125 grid points, point `t` taking rows `4000 t … 4000 t + 3999` of the
  `[500000, 4]` logits and writing the same rows of the output. A row's four outputs are the softmax of its four logits
  (`Routing.softmax`): the row maximum from −∞, the shifted exponentials, their sum, the quotient. The blocks tile the
  array, so the output array after the region is `Routing.softmax` of the logits array as the region finds it.
-/
import proofs.«134220_j71279277244617_1_alg».proof.Proof.Gen.KernelIdeal.Frame
import proofs.«134220_j71279277244617_1_alg».proof.Proof.Routing
import Idealize.ShloMosaic.Lib.Pipeline.Value
import Idealize.ShloMosaic.Lib.ValueLayout
import Idealize.ShloMosaic.PureOps.Ideal.Laws

set_option maxRecDepth 16384

noncomputable section

namespace Cert.KernelIdeal.SoftmaxRegion

open Cert.KernelIdeal Cert.KernelIdeal.Gen
open Idealize.ShloMosaic Idealize.ShloMosaic.TcCoe Idealize.SL.Sem Idealize.ShloMosaic.ValueIdx
open Idealize.ShloMosaic.Pipeline (Dat)

-- the buffers' contents when the region is entered: a parameter, as in the region's generated half
variable (V : (c : Dev nD) → (b : Ref sig .tc) → Buf (Elt Ideal) ((c : Thread nD τ).loc b))

/-! ## The body's arithmetic at an entry -/

/-- Reducing a row of four away and putting column `k` back names entry `(p, k)`. -/
private theorem lift_row (h : S4000x4.Reduces [1] S4000) (p : Fin 4000) (k : Fin 4) :
    h.lift (ix1 p) k = ix2 p k := by
  funext a; apply Fin.ext
  match a with
  | ⟨0, _⟩ => rfl
  | ⟨1, _⟩ => rfl

/-- Row results `[a]` laid out as a column `[a, 1]` keep row `p`'s value at `(p, 0)`: both sit at position `p` when
    the entries are counted row by row. -/
private theorem column_of_rows {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, q)`, the column's entry of row `p`. -/
private theorem spread_column {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum taken along the lanes of a `[4000, 4]` block, from −∞: row `p`'s result is the fold of `max` over the
    row's four entries. -/
private theorem rowMax_read (x : FVec Ideal S4000x4 .f32) (h : S4000x4.Reduces [1] S4000) (hφ : FKind.Formats .f32)
    (hacc : (0xFF800000#32 : BitVec 32) = FKind.maximumf.neutral .f32 hφ) (p : Fin 4000) :
    multiReduction .maximumf [1] S4000 x 0xFF800000#32 h hφ hacc (ix1 p)
      = (Finset.univ : Finset (Fin 4)).fold max (Ideal.ofBits .f32 0xFF800000#32) (fun k => x (ix2 p k)) := by
  refine (Ideal.multiReduction_maximumf_single x _ h hφ hacc (ix1 p)).trans ?_
  have e : (x ∘ h.lift (ix1 p)) = fun k : Fin 4 => x (ix2 p k) := funext fun k => congrArg x (lift_row h p k)
  exact congrArg (fun f : Fin 4 → EReal => (Finset.univ : Finset (Fin 4)).fold max (Ideal.ofBits .f32 0xFF800000#32) f) e

/-- The sum taken along the lanes, from zero: row `p`'s result is the sum of the row's four entries. -/
private theorem rowSum_read (x : FVec Ideal S4000x4 .f32) (h : S4000x4.Reduces [1] S4000) (hφ : FKind.Formats .f32)
    (hacc : (0x00000000#32 : BitVec 32) = FKind.add.neutral .f32 hφ) (p : Fin 4000) :
    multiReduction .add [1] S4000 x 0x00000000#32 h hφ hacc (ix1 p) = ∑ k : Fin 4, x (ix2 p k) := by
  refine (Ideal.multiReduction_add_single x _ h hφ hacc (ix1 p)).trans ?_
  exact Finset.sum_congr rfl fun k _ => congrArg x (lift_row h p k)

/-- The softmax of four logits, shifted by their maximum taken from −∞. -/
private def rowSoftmax (f : Fin 4 → EReal) (q : Fin 4) : EReal :=
  Ideal.div (Ideal.exp (f q - (Finset.univ : Finset (Fin 4)).fold max (Ideal.ofBits .f32 0xFF800000#32) f))
    (∑ k : Fin 4, Ideal.exp (f k - (Finset.univ : Finset (Fin 4)).fold max (Ideal.ofBits .f32 0xFF800000#32) f))

/-- The row maxima, kept as a column and spread back over the four lanes: every lane of row `p` reads the row's maximum. -/
private theorem maxKeep_read (x : FVec Ideal S4000x4 .f32) (h : S4000x4.Reduces [1] S4000) (hφ : FKind.Formats .f32)
    (hacc : (0xFF800000#32 : BitVec 32) = FKind.maximumf.neutral .f32 hφ) (hc : S4000.ShapeCasts S4000x1)
    (hb : S4000x1.Broadcasts S4000x4) (p : Fin 4000) (q : Fin 4) :
    broadcastTo S4000x4 (shapeCast S4000x1 (multiReduction .maximumf [1] S4000 x 0xFF800000#32 h hφ hacc) hc) hb (ix2 p q)
      = (Finset.univ : Finset (Fin 4)).fold max (Ideal.ofBits .f32 0xFF800000#32) (fun k => x (ix2 p k)) :=
  (spread_column _ hb p q).trans ((column_of_rows _ hc p 0).trans (rowMax_read x h hφ hacc p))

/-- The row sums, kept as a column and spread back: every lane of row `p` reads the row's sum. -/
private theorem sumKeep_read (x : FVec Ideal S4000x4 .f32) (h : S4000x4.Reduces [1] S4000) (hφ : FKind.Formats .f32)
    (hacc : (0x00000000#32 : BitVec 32) = FKind.add.neutral .f32 hφ) (hc : S4000.ShapeCasts S4000x1)
    (hb : S4000x1.Broadcasts S4000x4) (p : Fin 4000) (q : Fin 4) :
    broadcastTo S4000x4 (shapeCast S4000x1 (multiReduction .add [1] S4000 x 0x00000000#32 h hφ hacc) hc) hb (ix2 p q)
      = ∑ k : Fin 4, x (ix2 p k) :=
  (spread_column _ hb p q).trans ((column_of_rows _ hc p 0).trans (rowSum_read x h hφ hacc p))

/-- What the body stores at `(p, q)` is the softmax of row `p` of the block it loaded, at lane `q`: the quotient of the
    shifted exponential by the row's sum of shifted exponentials, the shift being the row's maximum. -/
private theorem pay_read (x0 : FVec Ideal S4000x4 .f32) (p : Fin 4000) (q : Fin 4) :
    k0_pay1 (F := Ideal) x0 (ix2 p q) = rowSoftmax (fun k => x0 (ix2 p k)) q := by
  unfold k0_pay1 rowSoftmax
  refine (divf_apply _ _ (ix2 p q)).trans ?_
  refine congrArg₂ Ideal.div ?_ ?_
  · exact congrArg Ideal.exp (congrArg (fun m => x0 (ix2 p q) - m) (maxKeep_read x0 _ _ _ _ _ p q))
  · refine (sumKeep_read _ _ _ _ _ _ p q).trans ?_
    exact Finset.sum_congr rfl fun k _ =>
      congrArg Ideal.exp (congrArg (fun m => x0 (ix2 p k) - m) (maxKeep_read x0 _ _ _ _ _ p k))

/-- The specification at an entry of row `r` is the softmax of that row's four logits. -/
private theorem softmax_row (a : Cert.Routing.EC.Idx → EReal) (r : Fin 500000) (q : Fin 4) :
    Cert.Routing.softmax a (ix2 r q) = rowSoftmax (fun k => a (ix2 r k)) q := rfl

/-- So where row `p` of the loaded block is row `r` of the logits array, the body stores the specification's row `r`:
    a row's softmax depends on that row alone. -/
private theorem pay_row (x0 : FVec Ideal S4000x4 .f32) (a : Cert.Routing.EC.Idx → EReal) (p : Fin 4000) (r : Fin 500000)
    (hrow : ∀ k : Fin 4, x0 (ix2 p k) = a (ix2 r k)) (q : Fin 4) :
    k0_pay1 (F := Ideal) x0 (ix2 p q) = Cert.Routing.softmax a (ix2 r q) :=
  (pay_read x0 p q).trans ((congrArg (fun f => rowSoftmax f q) (funext hrow)).trans (softmax_row a r q).symm)

/-! ## From the blocks to the array -/

/-- The body's one load and its one store are at offsets zero. -/
private theorem offsets_zero : (![0, 0] : Fin 2 → Nat) = fun _ => 0 := funext fun a => by fin_cases a <;> rfl

/-- The windows' index maps over the 125 points: at point `t` the logits window and the output window are both at block
    `(t, 0)`. -/
private theorem blockIndex : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The array row that row `p` of point `t`'s block is: `4000 t + p`. -/
private def rowAt (t : Fin cfg0.N) (p : Fin 4000) : Fin 500000 :=
  ⟨4000 * t.val + p.val, by have ht : t.val < 125 := t.isLt; have hp := p.isLt; omega⟩

/-- Entry `(p, k)` of the logits block at point `t` is entry `(4000 t + p, k)` of the logits array: a block's coordinate
    is the block index times the block's extent plus the coordinate inside the block. -/
private theorem emb_in (t : Fin cfg0.N) (p : Fin 4000) (k : Fin 4) :
    ((cfg0.win 0).blk t).view.emb (ix2 p k) = ix2 (rowAt t p) k := by
  obtain ⟨e0, e1, e2, e3⟩ := blockIndex t
  funext a; apply Fin.ext
  match a with
  | ⟨0, _⟩ => show win0_0.index t (0 : Fin 2) * 4000 + 1 * p.val = 4000 * t.val + p.val; omega
  | ⟨1, _⟩ => show win0_0.index t (1 : Fin 2) * 4 + 1 * k.val = k.val; omega

/-- Likewise entry `(p, k)` of the output block at point `t` is entry `(4000 t + p, k)` of the output array. -/
private theorem emb_out (t : Fin cfg0.N) (p : Fin 4000) (k : Fin 4) :
    ((cfg0.win 1).blk t).view.emb (ix2 p k) = ix2 (rowAt t p) k := by
  obtain ⟨e0, e1, e2, e3⟩ := blockIndex t
  funext a; apply Fin.ext
  match a with
  | ⟨0, _⟩ => show win0_1.index t (0 : Fin 2) * 4000 + 1 * p.val = 4000 * t.val + p.val; omega
  | ⟨1, _⟩ => show win0_1.index t (1 : Fin 2) * 4 + 1 * k.val = k.val; omega

/-- What point `t` writes back is block `t` of the softmax of the logits array as the region finds it: the body stores
    the softmax of each row of the logits block, and that block's rows are rows `4000 t … 4000 t + 3999` of the array,
    the very rows the output block covers. -/
private theorem flushed_softmax (c : Dev nD) (t : Fin cfg0.N) :
    (dat0 (F := Ideal) V c).flushed 1 t
      = ((cfg0.win 1).blk t).view.read (Elt Ideal) (Cert.Routing.softmax (V c main_arg1)) := by
  show (cfg0.win 1).cut (grid0.coords t) ((dat0 V c).after 1 t) = _
  rw [after0_1]
  unfold out0_1
  rw [View.canon_unit_zero offsets_zero]
  simp only [View.ld_unit_zero (S := S4000x4) offsets_zero]
  funext j
  obtain ⟨p, q, rfl⟩ : ∃ (p : Fin 4000) (q : Fin 4), j = ix2 p q := ⟨j 0, j 1, eq_ix2 j⟩
  show k0_pay1 (F := Ideal) (iblk0 V c 0 t) (ix2 p q)
    = Cert.Routing.softmax (V c main_arg1) (((cfg0.win 1).blk t).view.emb (ix2 p q))
  refine (pay_row (iblk0 V c 0 t) (V c main_arg1) p (rowAt t p) (fun k => ?_) q).trans
    (congrArg (Cert.Routing.softmax (V c main_arg1)) (emb_out t p q).symm)
  show V c main_arg1 (((cfg0.win 0).blk t).view.emb (ix2 p k)) = V c main_arg1 (ix2 (rowAt t p) k)
  rw [emb_in t p k]

/-- An index of the output array is in point `t`'s block iff each coordinate is in the block's range on its axis. -/
private theorem mem_outBlock (t : Fin cfg0.N) (i : S500000x4.Idx) :
    i ∈ ((cfg0.win 1).blk t).view.set ↔ ∀ a : Fin 2, win0_1.index t a * S4000x4.size a ≤ (i a).val
      ∧ (i a).val < win0_1.index t a * S4000x4.size a + S4000x4.size a := by
  show i ∈ ((View.whole main_v0).slice (win0_1.rect t)).set ↔ _
  rw [View.set_slice_whole, Rect.mem_set_unit]
  exact Iff.rfl

/-- The 125 blocks of 4000 rows tile the 500000 rows: row `r` is in the block of point `r / 4000`, and every point
    writes its block back. -/
private theorem rows_covered (i : S500000x4.Idx) :
    ∃ t : Fin cfg0.N, (cfg0.win 1).flush t = true ∧ i ∈ ((cfg0.win 1).blk t).view.set := by
  have hi0 : (i 0).val < 500000 := idx2_lt0 i
  have hi1 : (i 1).val < 4 := idx2_lt1 i
  obtain ⟨t, ht⟩ : ∃ t : Fin cfg0.N, t.val = (i 0).val / 4000 :=
    ⟨⟨(i 0).val / 4000, by show (i 0).val / 4000 < 125; omega⟩, rfl⟩
  obtain ⟨e0, e1, e2, e3⟩ := blockIndex t
  refine ⟨t, flush0_1 t, ?_⟩
  rw [mem_outBlock]
  intro a
  match a with
  | ⟨0, _⟩ =>
    show win0_1.index t (0 : Fin 2) * 4000 ≤ (i 0).val ∧ (i 0).val < win0_1.index t (0 : Fin 2) * 4000 + 4000
    omega
  | ⟨1, _⟩ =>
    show win0_1.index t (1 : Fin 2) * 4 ≤ (i 1).val ∧ (i 1).val < win0_1.index t (1 : Fin 2) * 4 + 4
    omega

/-- The output array after the region: the softmax of the logits, row by row. -/
theorem final0 (c : Dev nD) :
    (dat0 (F := Ideal) V c).arrAt 1 cfg0.N = Cert.Routing.softmax (V c main_arg1) :=
  (dat0 V c).arrAt_eq_of_cover 1 (Cert.Routing.softmax (V c main_arg1)) (fun t _ => flushed_softmax V c t) rows_covered

end Cert.KernelIdeal.SoftmaxRegion

end
-- ==== Proof.MessageRegion.lean ====
/-
  The second region on the extended reals: 125 grid points, point `t` taking rows `4000 t … 4000 t + 3999` of three
  `[500000, 4]` weight arrays and of the `[500000, 128]` picked feature rows, and writing the same rows of the
  `[500000, 128]` output in four stores of 32 lanes. Lane `32 c + d` of an output row is the feature there times
  `(p · s) · t` at capsule `c` (`Routing.edgeVal`). The blocks tile the array, so the output array after the region
  is `Routing.edgeVal` of the four arrays as the region finds them.
-/
import proofs.«134220_j71279277244617_1_alg».proof.Proof.Gen.KernelIdeal.Frame
import proofs.«134220_j71279277244617_1_alg».proof.Proof.Routing
import Idealize.ShloMosaic.Lib.Pipeline.Value
import Idealize.ShloMosaic.Lib.ValueLayout
import Idealize.ShloMosaic.PureOps.Ideal.Laws

set_option maxRecDepth 16384

noncomputable section

namespace Cert.KernelIdeal.MessageRegion

open Cert.KernelIdeal Cert.KernelIdeal.Gen
open Idealize.ShloMosaic Idealize.ShloMosaic.TcCoe Idealize.SL.Sem Idealize.ShloMosaic.ValueIdx
open Idealize.ShloMosaic.Pipeline (Dat)

-- the buffers' contents when the region is entered: a parameter, as in the region's generated half
variable (V : (c : Dev nD) → (b : Ref sig .tc) → Buf (Elt Ideal) ((c : Thread nD τ).loc b))

/-! ## The four stores at an index -/

/-- The product of the three weight blocks at an index. -/
theorem weights_at (x0 x1 x2 : Vec Ideal S4000x4 .f32) (p : Fin 4000) (k : Fin 4) :
    k1_pay1 x0 x1 x2 (ix2 p k) = (x0 (ix2 p k) * x1 (ix2 p k)) * x2 (ix2 p k) := by
  unfold k1_pay1
  rw [shapeCast_self, shapeCast_self, shapeCast_self]
  rfl

/-- Capsule 0's store at row `p`, component `d`: the feature slice there times column `0` of the weights' product at row
    `p` (the column is cut out as a `[4000, 1]` slice and repeated along the 32 lanes). -/
theorem pay2_at (x0 x1 x2 : Vec Ideal S4000x4 .f32) (y : Vec Ideal S4000x32 .f32) (p : Fin 4000) (d : Fin 32) :
    k1_pay2 x0 x1 x2 y (ix2 p d)
      = y (ix2 p d) * ((x0 (ix2 p (0 : Fin 4)) * x1 (ix2 p (0 : Fin 4))) * x2 (ix2 p (0 : Fin 4))) := by
  unfold k1_pay2
  rw [shapeCast_self]
  refine (mulf_apply _ _ _).trans ?_
  refine congrArg (y (ix2 p d) * ·) ?_
  refine (broadcastTo_apply _ _ (ix2 p d) (ix2 p (0 : Fin 1)) ?_).trans ?_
  · intro a
    match a with
    | ⟨0, _⟩ => rfl
    | ⟨1, _⟩ => rfl
  refine (extractStridedSlice_apply _ _ _ (ix2 p (0 : Fin 1)) (ix2 p (0 : Fin 4)) ?_).trans ?_
  · intro a
    match a with
    | ⟨0, _⟩ => show p.val = 0 + p.val; omega
    | ⟨1, _⟩ => rfl
  exact weights_at x0 x1 x2 p 0

/-- Capsule 1's store at row `p`, component `d`: the feature slice there times column `1` of the weights' product at row
    `p` (the column is cut out as a `[4000, 1]` slice and repeated along the 32 lanes). -/
theorem pay3_at (x0 x1 x2 : Vec Ideal S4000x4 .f32) (y : Vec Ideal S4000x32 .f32) (p : Fin 4000) (d : Fin 32) :
    k1_pay3 x0 x1 x2 y (ix2 p d)
      = y (ix2 p d) * ((x0 (ix2 p (1 : Fin 4)) * x1 (ix2 p (1 : Fin 4))) * x2 (ix2 p (1 : Fin 4))) := by
  unfold k1_pay3
  rw [shapeCast_self]
  refine (mulf_apply _ _ _).trans ?_
  refine congrArg (y (ix2 p d) * ·) ?_
  refine (broadcastTo_apply _ _ (ix2 p d) (ix2 p (0 : Fin 1)) ?_).trans ?_
  · intro a
    match a with
    | ⟨0, _⟩ => rfl
    | ⟨1, _⟩ => rfl
  refine (extractStridedSlice_apply _ _ _ (ix2 p (0 : Fin 1)) (ix2 p (1 : Fin 4)) ?_).trans ?_
  · intro a
    match a with
    | ⟨0, _⟩ => show p.val = 0 + p.val; omega
    | ⟨1, _⟩ => rfl
  exact weights_at x0 x1 x2 p 1

/-- Capsule 2's store at row `p`, component `d`: the feature slice there times column `2` of the weights' product at row
    `p` (the column is cut out as a `[4000, 1]` slice and repeated along the 32 lanes). -/
theorem pay4_at (x0 x1 x2 : Vec Ideal S4000x4 .f32) (y : Vec Ideal S4000x32 .f32) (p : Fin 4000) (d : Fin 32) :
    k1_pay4 x0 x1 x2 y (ix2 p d)
      = y (ix2 p d) * ((x0 (ix2 p (2 : Fin 4)) * x1 (ix2 p (2 : Fin 4))) * x2 (ix2 p (2 : Fin 4))) := by
  unfold k1_pay4
  rw [shapeCast_self]
  refine (mulf_apply _ _ _).trans ?_
  refine congrArg (y (ix2 p d) * ·) ?_
  refine (broadcastTo_apply _ _ (ix2 p d) (ix2 p (0 : Fin 1)) ?_).trans ?_
  · intro a
    match a with
    | ⟨0, _⟩ => rfl
    | ⟨1, _⟩ => rfl
  refine (extractStridedSlice_apply _ _ _ (ix2 p (0 : Fin 1)) (ix2 p (2 : Fin 4)) ?_).trans ?_
  · intro a
    match a with
    | ⟨0, _⟩ => show p.val = 0 + p.val; omega
    | ⟨1, _⟩ => rfl
  exact weights_at x0 x1 x2 p 2

/-- Capsule 3's store at row `p`, component `d`: the feature slice there times column `3` of the weights' product at row
    `p` (the column is cut out as a `[4000, 1]` slice and repeated along the 32 lanes). -/
theorem pay5_at (x0 x1 x2 : Vec Ideal S4000x4 .f32) (y : Vec Ideal S4000x32 .f32) (p : Fin 4000) (d : Fin 32) :
    k1_pay5 x0 x1 x2 y (ix2 p d)
      = y (ix2 p d) * ((x0 (ix2 p (3 : Fin 4)) * x1 (ix2 p (3 : Fin 4))) * x2 (ix2 p (3 : Fin 4))) := by
  unfold k1_pay5
  rw [shapeCast_self]
  refine (mulf_apply _ _ _).trans ?_
  refine congrArg (y (ix2 p d) * ·) ?_
  refine (broadcastTo_apply _ _ (ix2 p d) (ix2 p (0 : Fin 1)) ?_).trans ?_
  · intro a
    match a with
    | ⟨0, _⟩ => rfl
    | ⟨1, _⟩ => rfl
  refine (extractStridedSlice_apply _ _ _ (ix2 p (0 : Fin 1)) (ix2 p (3 : Fin 4)) ?_).trans ?_
  · intro a
    match a with
    | ⟨0, _⟩ => show p.val = 0 + p.val; omega
    | ⟨1, _⟩ => rfl
  exact weights_at x0 x1 x2 p 3

/-! ## The staging block as one function -/

/-- One staging block as a function of its index: the feature there times the product of the three weights at the
    lane's capsule. -/
def blockVal (x0 x1 x2 : Vec Ideal S4000x4 .f32) (x3 : Vec Ideal S4000x128 .f32) : Vec Ideal S4000x128 .f32 := fun j =>
  x3 j * ((x0 (ix2 (Cert.Routing.rowOf j) (Cert.Routing.capOf (Cert.Routing.colOf j)))
      * x1 (ix2 (Cert.Routing.rowOf j) (Cert.Routing.capOf (Cert.Routing.colOf j))))
    * x2 (ix2 (Cert.Routing.rowOf j) (Cert.Routing.capOf (Cert.Routing.colOf j))))

/-- The zero offsets of a whole-block load, as a constant function. -/
theorem zero_off : (![0, 0] : Fin 2 → Nat) = fun _ => 0 := funext fun a => by
  match a with
  | ⟨0, _⟩ => rfl
  | ⟨1, _⟩ => rfl

/-- The store into lanes `0 … 31` is `blockVal` there: lane `0 + d` belongs to capsule `0`. -/
theorem piece0 (x0 x1 x2 : Vec Ideal S4000x4 .f32) (x3 : Vec Ideal S4000x128 .f32) (x : S4000x32.Idx) :
    k1_pay2 (View.ld x0 r1_0) (View.ld x1 r1_0) (View.ld x2 r1_0) (View.ld x3 r1_1) x
      = blockVal x0 x1 x2 x3 (r1_1.emb x) := by
  obtain ⟨p, d, rfl⟩ : ∃ (p : Fin 4000) (d : Fin 32), x = ix2 p d := ⟨x 0, x 1, eq_ix2 x⟩
  rw [View.ld_unit_zero (S := S4000x4) zero_off, View.ld_unit_zero (S := S4000x4) zero_off,
    View.ld_unit_zero (S := S4000x4) zero_off, pay2_at]
  have e : ix2 (Cert.Routing.rowOf (r1_1.emb (ix2 p d))) (Cert.Routing.capOf (Cert.Routing.colOf (r1_1.emb (ix2 p d))))
      = ix2 p (0 : Fin 4) := by
    have e0 : Cert.Routing.rowOf (r1_1.emb (ix2 p d)) = p := Fin.ext (by show 0 + 1 * p.val = p.val; omega)
    have e1 : Cert.Routing.capOf (Cert.Routing.colOf (r1_1.emb (ix2 p d))) = (0 : Fin 4) :=
      Fin.ext (by show (0 + 1 * d.val) / 32 = 0; omega)
    rw [e0, e1]
  unfold blockVal
  rw [e]
  rfl

/-- The store into lanes `32 … 63` is `blockVal` there: lane `32 + d` belongs to capsule `1`. -/
theorem piece1 (x0 x1 x2 : Vec Ideal S4000x4 .f32) (x3 : Vec Ideal S4000x128 .f32) (x : S4000x32.Idx) :
    k1_pay3 (View.ld x0 r1_0) (View.ld x1 r1_0) (View.ld x2 r1_0) (View.ld x3 r1_2) x
      = blockVal x0 x1 x2 x3 (r1_2.emb x) := by
  obtain ⟨p, d, rfl⟩ : ∃ (p : Fin 4000) (d : Fin 32), x = ix2 p d := ⟨x 0, x 1, eq_ix2 x⟩
  rw [View.ld_unit_zero (S := S4000x4) zero_off, View.ld_unit_zero (S := S4000x4) zero_off,
    View.ld_unit_zero (S := S4000x4) zero_off, pay3_at]
  have e : ix2 (Cert.Routing.rowOf (r1_2.emb (ix2 p d))) (Cert.Routing.capOf (Cert.Routing.colOf (r1_2.emb (ix2 p d))))
      = ix2 p (1 : Fin 4) := by
    have e0 : Cert.Routing.rowOf (r1_2.emb (ix2 p d)) = p := Fin.ext (by show 0 + 1 * p.val = p.val; omega)
    have e1 : Cert.Routing.capOf (Cert.Routing.colOf (r1_2.emb (ix2 p d))) = (1 : Fin 4) :=
      Fin.ext (by show (32 + 1 * d.val) / 32 = 1; omega)
    rw [e0, e1]
  unfold blockVal
  rw [e]
  rfl

/-- The store into lanes `64 … 95` is `blockVal` there: lane `64 + d` belongs to capsule `2`. -/
theorem piece2 (x0 x1 x2 : Vec Ideal S4000x4 .f32) (x3 : Vec Ideal S4000x128 .f32) (x : S4000x32.Idx) :
    k1_pay4 (View.ld x0 r1_0) (View.ld x1 r1_0) (View.ld x2 r1_0) (View.ld x3 r1_3) x
      = blockVal x0 x1 x2 x3 (r1_3.emb x) := by
  obtain ⟨p, d, rfl⟩ : ∃ (p : Fin 4000) (d : Fin 32), x = ix2 p d := ⟨x 0, x 1, eq_ix2 x⟩
  rw [View.ld_unit_zero (S := S4000x4) zero_off, View.ld_unit_zero (S := S4000x4) zero_off,
    View.ld_unit_zero (S := S4000x4) zero_off, pay4_at]
  have e : ix2 (Cert.Routing.rowOf (r1_3.emb (ix2 p d))) (Cert.Routing.capOf (Cert.Routing.colOf (r1_3.emb (ix2 p d))))
      = ix2 p (2 : Fin 4) := by
    have e0 : Cert.Routing.rowOf (r1_3.emb (ix2 p d)) = p := Fin.ext (by show 0 + 1 * p.val = p.val; omega)
    have e1 : Cert.Routing.capOf (Cert.Routing.colOf (r1_3.emb (ix2 p d))) = (2 : Fin 4) :=
      Fin.ext (by show (64 + 1 * d.val) / 32 = 2; omega)
    rw [e0, e1]
  unfold blockVal
  rw [e]
  rfl

/-- The store into lanes `96 … 127` is `blockVal` there: lane `96 + d` belongs to capsule `3`. -/
theorem piece3 (x0 x1 x2 : Vec Ideal S4000x4 .f32) (x3 : Vec Ideal S4000x128 .f32) (x : S4000x32.Idx) :
    k1_pay5 (View.ld x0 r1_0) (View.ld x1 r1_0) (View.ld x2 r1_0) (View.ld x3 r1_4) x
      = blockVal x0 x1 x2 x3 (r1_4.emb x) := by
  obtain ⟨p, d, rfl⟩ : ∃ (p : Fin 4000) (d : Fin 32), x = ix2 p d := ⟨x 0, x 1, eq_ix2 x⟩
  rw [View.ld_unit_zero (S := S4000x4) zero_off, View.ld_unit_zero (S := S4000x4) zero_off,
    View.ld_unit_zero (S := S4000x4) zero_off, pay5_at]
  have e : ix2 (Cert.Routing.rowOf (r1_4.emb (ix2 p d))) (Cert.Routing.capOf (Cert.Routing.colOf (r1_4.emb (ix2 p d))))
      = ix2 p (3 : Fin 4) := by
    have e0 : Cert.Routing.rowOf (r1_4.emb (ix2 p d)) = p := Fin.ext (by show 0 + 1 * p.val = p.val; omega)
    have e1 : Cert.Routing.capOf (Cert.Routing.colOf (r1_4.emb (ix2 p d))) = (3 : Fin 4) :=
      Fin.ext (by show (96 + 1 * d.val) / 32 = 3; omega)
    rw [e0, e1]
  unfold blockVal
  rw [e]
  rfl

/-- The four stores tile the 128 lanes, so together they leave the block at `blockVal` of the four loaded blocks. -/
theorem out_eq (x0 x1 x2 : Vec Ideal S4000x4 .f32) (x3 : Vec Ideal S4000x128 .f32) :
    out1_4 (F := Ideal) x0 x1 x2 x3 = blockVal x0 x1 x2 x3 := by
  funext y
  unfold out1_4
  refine View.canon_apply_of_pieces (blockVal x0 x1 x2 x3) _ ?_ y (cover1_4 _ _ _ _ y)
  intro pc hpc x
  simp only [List.mem_cons, List.not_mem_nil, or_false] at hpc
  rcases hpc with rfl | rfl | rfl | rfl
  · exact piece3 x0 x1 x2 x3 x
  · exact piece2 x0 x1 x2 x3 x
  · exact piece1 x0 x1 x2 x3 x
  · exact piece0 x0 x1 x2 x3 x

/-! ## From a block to the arrays -/

/-- A block of `Routing.edgeVal`: when the four loaded blocks are the arrays read `b` blocks of 4000 rows along, the
    columns in place, `blockVal` of them is `Routing.edgeVal` of the arrays at the block's place (the capsule of a lane
    does not depend on the row). -/
theorem blockVal_reads (P S T : Cert.Routing.EC.Idx → EReal) (X : Cert.Routing.EF.Idx → EReal)
    (e0 e1 e2 : S4000x4.Idx → Cert.Routing.EC.Idx) (e3 e4 : S4000x128.Idx → Cert.Routing.EF.Idx) (b : Nat)
    (h0 : ∀ k, (e0 k 0).val = b * 4000 + (k 0).val ∧ (e0 k 1).val = (k 1).val)
    (h1 : ∀ k, (e1 k 0).val = b * 4000 + (k 0).val ∧ (e1 k 1).val = (k 1).val)
    (h2 : ∀ k, (e2 k 0).val = b * 4000 + (k 0).val ∧ (e2 k 1).val = (k 1).val)
    (h3 : ∀ j, (e3 j 0).val = b * 4000 + (j 0).val ∧ (e3 j 1).val = (j 1).val)
    (h4 : ∀ j, (e4 j 0).val = b * 4000 + (j 0).val ∧ (e4 j 1).val = (j 1).val)
    (j : S4000x128.Idx) :
    blockVal (fun k => P (e0 k)) (fun k => S (e1 k)) (fun k => T (e2 k)) (fun j => X (e3 j)) j
      = Cert.Routing.edgeVal P S T X (e4 j) := by
  have e34 : e3 j = e4 j := by
    funext a; apply Fin.ext
    match a with
    | ⟨0, _⟩ => exact (h3 j).1.trans (h4 j).1.symm
    | ⟨1, _⟩ => exact (h3 j).2.trans (h4 j).2.symm
  have key : ∀ e : S4000x4.Idx → Cert.Routing.EC.Idx,
      (∀ k, (e k 0).val = b * 4000 + (k 0).val ∧ (e k 1).val = (k 1).val) →
      e (ix2 (Cert.Routing.rowOf j) (Cert.Routing.capOf (Cert.Routing.colOf j)))
        = ix2 (Cert.Routing.rowOf (e4 j)) (Cert.Routing.capOf (Cert.Routing.colOf (e4 j))) := by
    intro e h
    funext a; apply Fin.ext
    match a with
    | ⟨0, _⟩ => exact (h _).1.trans (h4 j).1.symm
    | ⟨1, _⟩ => exact (h _).2.trans (congrArg (· / 32) (h4 j).2.symm)
  unfold blockVal Cert.Routing.edgeVal
  show X (e3 j) * ((P (e0 _) * S (e1 _)) * T (e2 _)) = X (e4 j) * ((P _ * S _) * T _)
  rw [e34, key e0 h0, key e1 h1, key e2 h2]

/-- The index maps over the 125 points: every window's block index at point `t` is `t` on the rows and `0` on
    the columns. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `Routing.edgeVal` of the four arrays as the region finds them. -/
theorem flushed_eq (c : Dev nD) (t : Fin cfg1.N) :
    (dat1 (F := Ideal) V c).flushed 4 t
      = ((cfg1.win 4).blk t).view.read (Elt Ideal)
          (Cert.Routing.edgeVal (V c main_v0) (V c main_v15) (V c main_v22) (V c main_v29)) := by
  show (cfg1.win 4).cut (grid1.coords t) ((dat1 V c).after 4 t) = _
  rw [after1_4, out_eq]
  obtain ⟨a0, a1, b0, b1, c0, c1, d0, d1, o0, o1⟩ := idx_facts t
  funext j
  show blockVal (fun k => V c main_v0 (((cfg1.win 0).blk t).view.emb k))
      (fun k => V c main_v15 (((cfg1.win 1).blk t).view.emb k))
      (fun k => V c main_v22 (((cfg1.win 2).blk t).view.emb k))
      (fun k => V c main_v29 (((cfg1.win 3).blk t).view.emb k)) j
    = Cert.Routing.edgeVal (V c main_v0) (V c main_v15) (V c main_v22) (V c main_v29) (((cfg1.win 4).blk t).view.emb j)
  refine blockVal_reads _ _ _ _ _ _ _ _ _ t.val ?_ ?_ ?_ ?_ ?_ j
  · intro k
    exact ⟨by show win1_0.index t (0 : Fin 2) * 4000 + 1 * (k 0).val = t.val * 4000 + (k 0).val; rw [a0]; omega,
      by show win1_0.index t (1 : Fin 2) * 4 + 1 * (k 1).val = (k 1).val; rw [a1]; omega⟩
  · intro k
    exact ⟨by show win1_1.index t (0 : Fin 2) * 4000 + 1 * (k 0).val = t.val * 4000 + (k 0).val; rw [b0]; omega,
      by show win1_1.index t (1 : Fin 2) * 4 + 1 * (k 1).val = (k 1).val; rw [b1]; omega⟩
  · intro k
    exact ⟨by show win1_2.index t (0 : Fin 2) * 4000 + 1 * (k 0).val = t.val * 4000 + (k 0).val; rw [c0]; omega,
      by show win1_2.index t (1 : Fin 2) * 4 + 1 * (k 1).val = (k 1).val; rw [c1]; omega⟩
  · intro k
    exact ⟨by show win1_3.index t (0 : Fin 2) * 4000 + 1 * (k 0).val = t.val * 4000 + (k 0).val; rw [d0]; omega,
      by show win1_3.index t (1 : Fin 2) * 128 + 1 * (k 1).val = (k 1).val; rw [d1]; omega⟩
  · intro k
    exact ⟨by show win1_4.index t (0 : Fin 2) * 4000 + 1 * (k 0).val = t.val * 4000 + (k 0).val; rw [o0]; omega,
      by show win1_4.index t (1 : Fin 2) * 128 + 1 * (k 1).val = (k 1).val; rw [o1]; omega⟩

/-- An index of the output array is in point `t`'s block iff each coordinate is in the block's range on its axis. -/
theorem mem_blk (t : Fin cfg1.N) (i : S500000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v30).slice (win1_4.rect t)).set ↔ _
  rw [View.set_slice_whole, Rect.mem_set_unit]
  exact Iff.rfl

/-- The blocks tile the output array: row `r` is in the block of point `r / 4000`. -/
theorem covered (i : S500000x128.Idx) :
    ∃ t : Fin cfg1.N, (cfg1.win 4).flush t = true ∧ i ∈ ((cfg1.win 4).blk t).view.set := by
  have hi0 : (i 0).val < 500000 := idx2_lt0 i
  have hi1 : (i 1).val < 128 := idx2_lt1 i
  obtain ⟨t, ht⟩ : ∃ t : Fin cfg1.N, t.val = (i 0).val / 4000 :=
    ⟨⟨(i 0).val / 4000, Nat.lt_of_lt_of_eq (by omega : (i 0).val / 4000 < 125) (rfl : 125 = cfg1.N)⟩, rfl⟩
  obtain ⟨-, -, -, -, -, -, -, -, o0, o1⟩ := idx_facts t
  refine ⟨t, flush1_4 t, ?_⟩
  rw [mem_blk]
  intro a
  match a with
  | ⟨0, _⟩ =>
    show win1_4.index t (0 : Fin 2) * 4000 ≤ (i 0).val ∧ (i 0).val < win1_4.index t (0 : Fin 2) * 4000 + 4000
    rw [o0]; omega
  | ⟨1, _⟩ =>
    show win1_4.index t (1 : Fin 2) * 128 ≤ (i 1).val ∧ (i 1).val < win1_4.index t (1 : Fin 2) * 128 + 128
    rw [o1]; omega

/-- The output array after the region: each edge's message. -/
theorem final1 (c : Dev nD) :
    (dat1 (F := Ideal) V c).arrAt 4 cfg1.N
      = Cert.Routing.edgeVal (V c main_v0) (V c main_v15) (V c main_v22) (V c main_v29) :=
  (dat1 (F := Ideal) V c).arrAt_eq_of_cover 4 _ (fun t _ => flushed_eq V c t) covered

end Cert.KernelIdeal.MessageRegion

end
-- ==== Proof.CombineRegion.lean ====
/-
  The third region on the extended reals: 125 grid points, point `t` taking rows `4000 t … 4000 t + 3999` of two
  `[500000, 128]` arrays (the message rows picked at the source, the feature rows picked at the target) and writing the
  same rows of the `[500000, 4]` output in four stores of one column. Column `c` of an output row is the sum over the
  32 components of capsule `c` of the first row's normalised component times `tanh` of the second's
  (`Routing.combine`). The blocks tile the array, so the output array after the region is `Routing.combine` of the
  two arrays as the region finds them.
-/
import proofs.«134220_j71279277244617_1_alg».proof.Proof.Gen.KernelIdeal.Frame
import proofs.«134220_j71279277244617_1_alg».proof.Proof.Routing
import Idealize.ShloMosaic.Lib.Pipeline.Value
import Idealize.ShloMosaic.Lib.ValueLayout
import Idealize.ShloMosaic.PureOps.Ideal.Laws

set_option maxRecDepth 16384

noncomputable section

namespace Cert.KernelIdeal.CombineRegion

open Cert.KernelIdeal Cert.KernelIdeal.Gen
open Idealize.ShloMosaic Idealize.ShloMosaic.TcCoe Idealize.SL.Sem Idealize.ShloMosaic.ValueIdx
open Idealize.ShloMosaic.Pipeline (Dat)

-- the buffers' contents when the region is entered: a parameter, as in the region's generated half
variable (V : (c : Dev nD) → (b : Ref sig .tc) → Buf (Elt Ideal) ((c : Thread nD τ).loc b))

/-! ## One capsule of one block: 32 lanes of 4000 rows -/

/-- Entry `d` of row `p` of a 32-lane slice, divided by the row's length floored at the small constant. -/
private def unit32 (v : S4000x32.Idx → EReal) (p : Fin 4000) (d : Fin 32) : EReal :=
  Ideal.div (v (ix2 p d))
    (max (Ideal.sqrt (∑ d' : Fin 32, v (ix2 p d') * v (ix2 p d'))) (Ideal.ofBits .f32 0x2B8CBCCC#32))

/-- Row `p`: the dot product over the 32 lanes of the normalised first slice with `tanh` of the normalised second. -/
private def capsule (h x : S4000x32.Idx → EReal) (p : Fin 4000) : EReal :=
  ∑ d : Fin 32, unit32 h p d * Ideal.tanh (unit32 x p d)

/-- A sum along the 32 lanes, kept as a one-entry column, read at row `p`: the sum of the row's entries. The column's
    entry `(p, 0)` and the summed vector's entry `p` have the same row-major position; the summed vector's entry `p` is
    the sum over the lane coordinate put back in. -/
private theorem laneSum_apply (w : FVec Ideal S4000x32 .f32) (hr : S4000x32.Reduces [1] S4000) (hφ : FKind.Formats .f32)
    (hacc : (0x00000000#32 : BitVec 32) = 0x00000000#32) (hc : S4000.ShapeCasts S4000x1) (p : Fin 4000) (q : Fin 1) :
    shapeCast S4000x1 (multiReduction .add [1] S4000 w 0x00000000#32 hr hφ hacc) hc (ix2 p q)
      = ∑ d : Fin 32, w (ix2 p d) := by
  refine (shapeCast_apply _ hc (ix2 p q) (ix1 p) ?_).trans ?_
  · rw [Shape.rowMajor_val_one, Shape.rowMajor_val_two]
    show p.val = p.val * 1 + q.val
    have := q.isLt
    omega
  · refine (Ideal.multiReduction_add_single w _ hr hφ hacc (ix1 p)).trans ?_
    show ∑ k : Fin 32, w (hr.lift (ix1 p) k) = _
    refine Finset.sum_congr rfl fun k _ => congrArg w ?_
    funext a
    apply Fin.ext
    match a with
    | ⟨0, _⟩ => rfl
    | ⟨1, _⟩ => rfl

/-- A slice divided by a column laid along its 32 lanes, the column's root floored: at row `p`, lane `d`, the entry
    over the floored root of the column's entry of row `p`. -/
private theorem floored_apply (v : FVec Ideal S4000x32 .f32) (col : FVec Ideal S4000x1 .f32) (hb : S4000x1.Broadcasts S4000x32)
    (p : Fin 4000) (d : Fin 32) :
    divf v (broadcastTo S4000x32 (maximumf (sqrt col) (broadcast S4000x1 (Scalar.ofBits .f32 0x2B8CBCCC#32))) hb) (ix2 p d)
      = Ideal.div (v (ix2 p d)) (max (Ideal.sqrt (col (ix2 p 0))) (Ideal.ofBits .f32 0x2B8CBCCC#32)) := by
  show Ideal.div (v (ix2 p d)) (broadcastTo S4000x32 _ hb (ix2 p d)) = _
  refine congrArg (Ideal.div (v (ix2 p d))) ?_
  refine (broadcastTo_apply _ hb (ix2 p d) (ix2 p (0 : Fin 1)) fun a => ?_).trans rfl
  match a with
  | ⟨0, _⟩ => rfl
  | ⟨1, _⟩ => rfl

/-- A slice normalised the kernel's way — squares summed along the lanes, the root floored, laid back along the lanes,
    divided — is `unit32` entry by entry. -/
private theorem normalised_apply (v : FVec Ideal S4000x32 .f32) (hr : S4000x32.Reduces [1] S4000) (hφ : FKind.Formats .f32)
    (hacc : (0x00000000#32 : BitVec 32) = 0x00000000#32) (hc : S4000.ShapeCasts S4000x1) (hb : S4000x1.Broadcasts S4000x32)
    (p : Fin 4000) (d : Fin 32) :
    divf v (broadcastTo S4000x32 (maximumf (sqrt (shapeCast S4000x1 (multiReduction .add [1] S4000 (mulf v v) 0x00000000#32 hr hφ hacc) hc))
        (broadcast S4000x1 (Scalar.ofBits .f32 0x2B8CBCCC#32))) hb) (ix2 p d) = unit32 v p d :=
  (floored_apply v _ hb p d).trans
    (congrArg (fun s => Ideal.div (v (ix2 p d)) (max (Ideal.sqrt s) (Ideal.ofBits .f32 0x2B8CBCCC#32)))
      (laneSum_apply (mulf v v) hr hφ hacc hc p 0))

/-- THE CAPSULE: the normalised first slice times `tanh` of the normalised second, summed along the lanes and kept as a
    column, is `capsule` at each row. -/
private theorem capsule_apply (h x : FVec Ideal S4000x32 .f32) (hr : S4000x32.Reduces [1] S4000) (hφ : FKind.Formats .f32)
    (hacc : (0x00000000#32 : BitVec 32) = 0x00000000#32) (hc : S4000.ShapeCasts S4000x1) (hb : S4000x1.Broadcasts S4000x32)
    (p : Fin 4000) (q : Fin 1) :
    shapeCast S4000x1 (multiReduction .add [1] S4000
        (mulf
          (divf h (broadcastTo S4000x32 (maximumf (sqrt (shapeCast S4000x1 (multiReduction .add [1] S4000 (mulf h h) 0x00000000#32 hr hφ hacc) hc))
            (broadcast S4000x1 (Scalar.ofBits .f32 0x2B8CBCCC#32))) hb))
          (tanh (divf x (broadcastTo S4000x32 (maximumf (sqrt (shapeCast S4000x1 (multiReduction .add [1] S4000 (mulf x x) 0x00000000#32 hr hφ hacc) hc))
            (broadcast S4000x1 (Scalar.ofBits .f32 0x2B8CBCCC#32))) hb))))
        0x00000000#32 hr hφ hacc) hc (ix2 p q) = capsule h x p := by
  refine (laneSum_apply _ hr hφ hacc hc p q).trans ?_
  refine Finset.sum_congr rfl fun d _ => ?_
  show (divf h _ (ix2 p d)) * Ideal.tanh (divf x _ (ix2 p d)) = unit32 h p d * Ideal.tanh (unit32 x p d)
  rw [normalised_apply h hr hφ hacc hc hb p d, normalised_apply x hr hφ hacc hc hb p d]

/-! ## The four stores' payloads are the capsule of their slices

An identity cast of a slice is the slice; what is left of each payload is the capsule's term. -/

/-- Column 0's payload. -/
private theorem col0_payload (h x : Vec Ideal S4000x32 .f32) (p : Fin 4000) (q : Fin 1) :
    k2_pay2 (F := Ideal) h x (ix2 p q) = capsule h x p := by
  unfold k2_pay2
  simp only [shapeCast_self]
  exact capsule_apply h x _ _ _ _ _ p q

/-- Column 2's payload. -/
private theorem col2_payload (h x : Vec Ideal S4000x32 .f32) (p : Fin 4000) (q : Fin 1) :
    k2_pay7 (F := Ideal) h x (ix2 p q) = capsule h x p := by
  unfold k2_pay7
  simp only [shapeCast_self]
  exact capsule_apply h x _ _ _ _ _ p q

/-- Column 3's payload: its two slices come through the step before, unchanged. -/
private theorem col3_payload (h x : Vec Ideal S4000x32 .f32) (p : Fin 4000) (q : Fin 1) :
    k2_pay1 (F := Ideal) (k2_pay8 h) (k2_pay9 x) (ix2 p q) = capsule h x p := by
  unfold k2_pay1 k2_pay8 k2_pay9
  simp only [shapeCast_self]
  exact capsule_apply h x _ _ _ _ _ p q

/-- Column 1's payload: the step before hands over the second slice, the first slice already normalised, and the
    second slice's squared lengths as a column. -/
private theorem col1_payload (h x : Vec Ideal S4000x32 .f32) (p : Fin 4000) (q : Fin 1) :
    k2_pay6 (F := Ideal) (k2_pay3 x) (k2_pay4 h) (k2_pay5 x) (ix2 p q) = capsule h x p := by
  unfold k2_pay6 k2_pay5 k2_pay4 k2_pay3
  simp only [shapeCast_self]
  exact capsule_apply h x _ _ _ _ _ p q

/-! ## The staging block as one function of the two input blocks -/

/-- Entry `d` of capsule `c` of row `p` of a [4000,128] block, divided by the capsule's length floored. -/
private def blockUnit (v : S4000x128.Idx → EReal) (p : Fin 4000) (c : Fin 4) (d : Fin 32) : EReal :=
  Ideal.div (v (ix2 p (Cert.Routing.lane c d)))
    (max (Ideal.sqrt (∑ d' : Fin 32, v (ix2 p (Cert.Routing.lane c d')) * v (ix2 p (Cert.Routing.lane c d'))))
      (Ideal.ofBits .f32 0x2B8CBCCC#32))

/-- What the body leaves in the [4000,4] block, from the two [4000,128] blocks: row by row and capsule by capsule, the dot
    product of the first's normalised capsule with `tanh` of the second's. -/
private def blockCombine (x0 x1 : S4000x128.Idx → EReal) : S4000x4.Idx → EReal := fun y =>
  ∑ d : Fin 32, blockUnit x0 (Cert.Routing.rowOf y) (Cert.Routing.colOf y) d
    * Ideal.tanh (blockUnit x1 (Cert.Routing.rowOf y) (Cert.Routing.colOf y) d)

/-- The capsule of two slices that are capsule `c`'s lanes of two blocks is the block function at column `c`. -/
private theorem capsule_slice (x0 x1 : S4000x128.Idx → EReal) (h x : S4000x32.Idx → EReal) (c : Fin 4)
    (hh : ∀ (p : Fin 4000) (d : Fin 32), h (ix2 p d) = x0 (ix2 p (Cert.Routing.lane c d)))
    (hx : ∀ (p : Fin 4000) (d : Fin 32), x (ix2 p d) = x1 (ix2 p (Cert.Routing.lane c d))) (p : Fin 4000) :
    capsule h x p = blockCombine x0 x1 (ix2 p c) := by
  show ∑ d : Fin 32, unit32 h p d * Ideal.tanh (unit32 x p d)
    = ∑ d : Fin 32, blockUnit x0 p c d * Ideal.tanh (blockUnit x1 p c d)
  refine Finset.sum_congr rfl fun d _ => ?_
  unfold unit32 blockUnit
  simp only [hh, hx]

/-- The 32 lanes read from lane `o = 32 c` on are capsule `c`'s: lane `d` of the slice is lane `32 c + d` of the block. -/
private theorem lanes_of_block (X : Vec Ideal S4000x128 .f32) (o : Nat)
    (inb : ∀ a, (![0, o] : Fin 2 → Nat) a + S4000x32.size a ≤ S4000x128.size a) (c : Fin 4) (ho : o = 32 * c.val)
    (p : Fin 4000) (d : Fin 32) :
    (View.ld X (Rect.unit (s := S4000x128) ![0, o] S4000x32.size inb) : S4000x32.Idx → EReal) (ix2 p d)
      = X (ix2 p (Cert.Routing.lane c d)) := by
  show X _ = X _
  refine congrArg X ?_
  funext a
  apply Fin.ext
  match a with
  | ⟨0, _⟩ => show 0 + 1 * p.val = p.val; omega
  | ⟨1, _⟩ => show o + 1 * d.val = 32 * c.val + d.val; omega

/-- The one-column rectangle at column `k` places its row `p` at `(p, k)`. -/
private theorem column_place (k : Nat) (hk : k < 4)
    (inb : ∀ a, (![0, k] : Fin 2 → Nat) a + S4000x1.size a ≤ S4000x4.size a) (p : Fin 4000) (q : Fin 1) :
    (Rect.unit (s := S4000x4) ![0, k] S4000x1.size inb).emb (ix2 p q) = ix2 p (⟨k, hk⟩ : Fin 4) := by
  funext a
  apply Fin.ext
  match a with
  | ⟨0, _⟩ => show 0 + 1 * p.val = p.val; omega
  | ⟨1, _⟩ => show k + 1 * q.val = k; have := q.isLt; omega

/-- THE STAGING BLOCK AFTER THE BODY: its four one-column stores are the four columns of one function. Each store's
    payload at its row `p` is the capsule of its two slices, which is the block function at `(p, column)`, which is where
    the store's rectangle puts row `p`; the four columns tile the block. -/
private theorem stagingBlock_eq (x0 x1 : Vec Ideal S4000x128 .f32) : out2_2 (F := Ideal) x0 x1 = blockCombine x0 x1 := by
  funext y
  unfold out2_2
  refine View.canon_apply_of_pieces (Val := Elt Ideal) (S := S4000x4) (e := .f32) (blockCombine x0 x1) _ ?_ y (cover2_2 _ _ _ _ y)
  intro pc hpc x
  simp only [List.mem_cons, List.not_mem_nil, or_false] at hpc
  rcases hpc with rfl | rfl | rfl | rfl
  · obtain ⟨p, q, rfl⟩ : ∃ (p : Fin 4000) (q : Fin 1), x = ix2 p q := ⟨x 0, x 1, eq_ix2 x⟩
    refine ((col3_payload _ _ p q).trans (capsule_slice x0 x1 _ _ 3 (lanes_of_block x0 96 _ 3 rfl) (lanes_of_block x1 96 _ 3 rfl) p)).trans ?_
    exact congrArg (blockCombine x0 x1) (column_place 3 (by omega) inb_S4000x4_S4000x1_0_3 p q).symm
  · obtain ⟨p, q, rfl⟩ : ∃ (p : Fin 4000) (q : Fin 1), x = ix2 p q := ⟨x 0, x 1, eq_ix2 x⟩
    refine ((col2_payload _ _ p q).trans (capsule_slice x0 x1 _ _ 2 (lanes_of_block x0 64 _ 2 rfl) (lanes_of_block x1 64 _ 2 rfl) p)).trans ?_
    exact congrArg (blockCombine x0 x1) (column_place 2 (by omega) inb_S4000x4_S4000x1_0_2 p q).symm
  · obtain ⟨p, q, rfl⟩ : ∃ (p : Fin 4000) (q : Fin 1), x = ix2 p q := ⟨x 0, x 1, eq_ix2 x⟩
    refine ((col1_payload _ _ p q).trans (capsule_slice x0 x1 _ _ 1 (lanes_of_block x0 32 _ 1 rfl) (lanes_of_block x1 32 _ 1 rfl) p)).trans ?_
    exact congrArg (blockCombine x0 x1) (column_place 1 (by omega) inb_S4000x4_S4000x1_0_1 p q).symm
  · obtain ⟨p, q, rfl⟩ : ∃ (p : Fin 4000) (q : Fin 1), x = ix2 p q := ⟨x 0, x 1, eq_ix2 x⟩
    refine ((col0_payload _ _ p q).trans (capsule_slice x0 x1 _ _ 0 (lanes_of_block x0 0 _ 0 rfl) (lanes_of_block x1 0 _ 0 rfl) p)).trans ?_
    exact congrArg (blockCombine x0 x1) (column_place 0 (by omega) inb_S4000x4_S4000x1_0_0 p q).symm

/-! ## From blocks to the array -/

/-- The region's index maps, checked point by point over the 125 points: point `t`'s three blocks are block row `t`,
    block column 0, of their arrays. -/
private theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row `p` of block `t` as a row of the 500000-row arrays. -/
private def rowAt (t : Nat) (ht : t < 125) (p : Fin 4000) : Fin 500000 :=
  ⟨4000 * t + p.val, by have := p.isLt; omega⟩

/-- The block function of two blocks that are rows `4000 t …` of two arrays is `Routing.combine` of the arrays on those
    rows: both are the same sums of the same entries. -/
private theorem blockCombine_rows (H X : Cert.Routing.EF.Idx → EReal) (x0 x1 : S4000x128.Idx → EReal) (t : Nat) (ht : t < 125)
    (h0 : ∀ (p : Fin 4000) (l : Fin 128), x0 (ix2 p l) = H (ix2 (rowAt t ht p) l))
    (h1 : ∀ (p : Fin 4000) (l : Fin 128), x1 (ix2 p l) = X (ix2 (rowAt t ht p) l))
    (p : Fin 4000) (k : Fin 4) :
    blockCombine x0 x1 (ix2 p k) = Cert.Routing.combine H X (ix2 (rowAt t ht p) k) := by
  show ∑ d : Fin 32, blockUnit x0 p k d * Ideal.tanh (blockUnit x1 p k d)
    = ∑ d : Fin 32, Cert.Routing.unitAt H (rowAt t ht p) k d * Ideal.tanh (Cert.Routing.unitAt X (rowAt t ht p) k d)
  refine Finset.sum_congr rfl fun d _ => ?_
  unfold blockUnit Cert.Routing.unitAt Cert.Routing.sqNorm
  simp only [h0, h1]

/-- Point `t`'s block of the first array (the message rows): its rows `4000 t … 4000 t + 3999`, all 128 lanes. A
    block's element sits at block index times block size plus its own coordinate. -/
private theorem msgBlock_rows (c : Dev nD) (t : Fin cfg2.N) (ht : t.val < 125) (p : Fin 4000) (l : Fin 128) :
    (iblk2 (F := Ideal) V c 0 t : Vec Ideal S4000x128 .f32) (ix2 p l)
      = (V c main_v40 : Cert.Routing.EF.Idx → EReal) (ix2 (rowAt t.val ht p) l) := by
  obtain ⟨e0, e1, -⟩ := block_index t
  unfold iblk2
  rw [View.read_apply]
  show V c main_v40 _ = V c main_v40 _
  congr 1
  funext a
  apply Fin.ext
  match a with
  | ⟨0, _⟩ => show win2_0.index t 0 * 4000 + 1 * p.val = 4000 * t.val + p.val; rw [e0]; omega
  | ⟨1, _⟩ => show win2_0.index t 1 * 128 + 1 * l.val = l.val; rw [e1]; omega

/-- Point `t`'s block of the second array (the feature rows) likewise. -/
private theorem featBlock_rows (c : Dev nD) (t : Fin cfg2.N) (ht : t.val < 125) (p : Fin 4000) (l : Fin 128) :
    (iblk2 (F := Ideal) V c 1 t : Vec Ideal S4000x128 .f32) (ix2 p l)
      = (V c main_v29 : Cert.Routing.EF.Idx → EReal) (ix2 (rowAt t.val ht p) l) := by
  obtain ⟨-, -, e2, e3, -⟩ := block_index t
  unfold iblk2
  rw [View.read_apply]
  show V c main_v29 _ = V c main_v29 _
  congr 1
  funext a
  apply Fin.ext
  match a with
  | ⟨0, _⟩ => show win2_1.index t 0 * 4000 + 1 * p.val = 4000 * t.val + p.val; rw [e2]; omega
  | ⟨1, _⟩ => show win2_1.index t 1 * 128 + 1 * l.val = l.val; rw [e3]; omega

/-- WHAT POINT `t` WRITES BACK is block `t` of `Routing.combine` of the two arrays as the region finds them: the staging
    block is the block function of the two input blocks, these are rows `4000 t …` of the arrays, and the output block's
    row `p` is the array's row `4000 t + p`. -/
private theorem writeback_eq (c : Dev nD) (t : Fin cfg2.N) :
    (dat2 (F := Ideal) V c).flushed 2 t
      = ((cfg2.win 2).blk t).view.read (Elt Ideal) (Cert.Routing.combine (V c main_v40) (V c main_v29)) := by
  have ht : t.val < 125 := lt_of_lt_of_eq t.isLt (show cfg2.N = 125 from N_2)
  obtain ⟨-, -, -, -, e4, e5⟩ := block_index t
  show (cfg2.win 2).cut (grid2.coords t) ((dat2 V c).after 2 t) = _
  rw [after2_2, stagingBlock_eq]
  funext j
  obtain ⟨p, k, rfl⟩ : ∃ (p : Fin 4000) (k : Fin 4), j = ix2 p k := ⟨j 0, j 1, eq_ix2 j⟩
  have hi : ((cfg2.win 2).blk t).view.emb (ix2 p k) = ix2 (rowAt t.val ht p) k := by
    funext a
    apply Fin.ext
    match a with
    | ⟨0, _⟩ => show win2_2.index t 0 * 4000 + 1 * p.val = 4000 * t.val + p.val; rw [e4]; omega
    | ⟨1, _⟩ => show win2_2.index t 1 * 4 + 1 * k.val = k.val; rw [e5]; omega
  show blockCombine (iblk2 V c 0 t) (iblk2 V c 1 t) (ix2 p k)
    = Cert.Routing.combine (V c main_v40) (V c main_v29) (((cfg2.win 2).blk t).view.emb (ix2 p k))
  rw [hi]
  exact blockCombine_rows _ _ _ _ t.val ht (msgBlock_rows V c t ht) (featBlock_rows V c t ht) p k

/-- Every index of the output array is in the block of the point its row falls in: row `r` in point `r / 4000`'s. -/
private theorem row_covered (i : S500000x4.Idx) :
    ∃ t : Fin cfg2.N, (cfg2.win 2).flush t = true ∧ i ∈ ((cfg2.win 2).blk t).view.set := by
  have hi0 : (i 0).val < 500000 := (i 0).isLt
  have hi1 : (i 1).val < 4 := (i 1).isLt
  obtain ⟨t, ht⟩ : ∃ t : Fin cfg2.N, t.val = (i 0).val / 4000 :=
    ⟨⟨(i 0).val / 4000, by rw [show cfg2.N = 125 from N_2]; omega⟩, rfl⟩
  obtain ⟨-, -, -, -, e4, e5⟩ := block_index t
  refine ⟨t, flush2_2 t, ?_⟩
  show i ∈ ((View.whole main_v41).slice (win2_2.rect t)).set
  rw [View.set_slice_whole, Rect.mem_set_unit]
  intro a
  match a with
  | ⟨0, _⟩ =>
    show win2_2.index t 0 * 4000 ≤ (i 0).val ∧ (i 0).val < win2_2.index t 0 * 4000 + 4000
    rw [e4, ht]; omega
  | ⟨1, _⟩ =>
    show win2_2.index t 1 * 4 ≤ (i 1).val ∧ (i 1).val < win2_2.index t 1 * 4 + 4
    rw [e5]; omega

/-- The output array after the region: each edge's new capsule logits. -/
theorem final2 (c : Dev nD) :
    (dat2 (F := Ideal) V c).arrAt 2 cfg2.N = Cert.Routing.combine (V c main_v40) (V c main_v29) :=
  (dat2 (F := Ideal) V c).arrAt_eq_of_cover 2 (Cert.Routing.combine (V c main_v40) (V c main_v29))
    (fun t _ => writeback_eq V c t) row_covered

end Cert.KernelIdeal.CombineRegion

end
-- ==== Proof.KernelResults.lean ====
/-
  The kernel program's two results on the extended reals, as functions of the launch arrays.

  The contents after the last region are a fold through @main: a region leaves its output array at its closed form
  (the three region modules) and its inputs as it found them; a stretch of host operations leaves each buffer at the
  operations' term of the buffers before it. Read back from the end: the second result is the third region's output,
  of the message rows picked at the source and the feature rows picked at the target; the first result is the host's
  sum per source node of the second region's output; that output is `Routing.edgeVal` of the first region's softmax
  and of rows picked from the host's `1 / sqrt` degree table. The host's picks and sums are read at an index by the
  row-gather and row-scatter lemmas. The index columns are carried as the program builds them, never opened.
-/
import proofs.«134220_j71279277244617_1_alg».proof.Proof.Gen.KernelIdeal.Frame
import proofs.«134220_j71279277244617_1_alg».proof.Proof.Routing
import proofs.«134220_j71279277244617_1_alg».proof.Proof.SoftmaxRegion
import proofs.«134220_j71279277244617_1_alg».proof.Proof.MessageRegion
import proofs.«134220_j71279277244617_1_alg».proof.Proof.CombineRegion
import Idealize.ShloMosaic.Lib.StableHlo.Run

set_option maxRecDepth 16384

noncomputable section

namespace Cert.KernelIdeal.Results

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.StableHlo (after_cons after_nil)

variable (m : (ℓ : Loc nD τ sig) → Buf (Elt Ideal) ℓ) (ρ : Dev nD → PrngReg)

/-- An index vector as a column, as @main builds it. -/
abbrev asCol (a : IVec S500000 32) : IVec S500000x1 32 :=
  broadcastInDim S500000x1 ![0] bcast_S500000_S500000x1_0 a

/-- An index vector with a negative index wrapped by the node count, as a column, as @main builds it. -/
abbrev wrapCol (a : IVec S500000 32) : IVec S500000x1 32 :=
  broadcastInDim S500000x1 ![0] bcast_S500000_S500000x1_0
    (select (cmpi .slt a (broadcastInDim S500000 ![] bcast_S_S500000 (constantI S_ 32 0#32)))
      (addi a (broadcastInDim S500000 ![] bcast_S_S500000 (constantI S_ 32 100000#32))) a)

/-! ## Row picks and per-node sums, as the printed records spell them -/

/-- A row pick from a `[100000, 4]` table through an index column. -/
theorem pick4_eq (x : S100000x4.Idx → EReal) (idx : IVec S500000x1 32) :
    Host.gather gather_S100000x4_S500000x1_S500000x4_1_0_n_n_0_1_14 x idx = Cert.Routing.takeRows (by decide) x idx := by
  funext i
  obtain ⟨e, k, rfl⟩ : ∃ (e : Fin 500000) (k : Fin 4), i = ix2 e k := ⟨i 0, i 1, eq_ix2 i⟩
  exact Cert.RowIndexed.gather_rows2 (by decide) _ rfl rfl rfl rfl rfl rfl rfl x idx e k

/-- A row pick from a `[100000, 128]` table through an index column. -/
theorem pick128_eq (x : S100000x128.Idx → EReal) (idx : IVec S500000x1 32) :
    Host.gather gather_S100000x128_S500000x1_S500000x128_1_0_n_n_0_1_1128 x idx = Cert.Routing.takeRows (by decide) x idx := by
  funext i
  obtain ⟨e, j, rfl⟩ : ∃ (e : Fin 500000) (j : Fin 128), i = ix2 e j := ⟨i 0, i 1, eq_ix2 i⟩
  exact Cert.RowIndexed.gather_rows2 (by decide) _ rfl rfl rfl rfl rfl rfl rfl x idx e j

/-- A constant table read at an index: the constant. -/
theorem splat4_apply (w : BitVec 32) (i : S100000x4.Idx) :
    broadcastInDim S100000x4 ![] bcast_S_S100000x4 (constant (F := Ideal) S_ .f32 w) i = Ideal.ofBits .f32 w := rfl
theorem splat128_apply (w : BitVec 32) (i : S100000x128.Idx) :
    broadcastInDim S100000x128 ![] bcast_S_S100000x128 (constant (F := Ideal) S_ .f32 w) i = Ideal.ofBits .f32 w := rfl

/-- The host's accumulating scatter on the extended reals is the exact sum: each operand element plus the updates landing on it. -/
theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

/-- A per-node sum of `[500000, 4]` rows from zero. -/
theorem sum4_eq (idx : IVec S500000x1 32) (u : S500000x4.Idx → EReal) :
    Host.scatterAdd scatter_S100000x4_S500000x1_S500000x4_1_0_0_1 (broadcastInDim S100000x4 ![] bcast_S_S100000x4 (constant (F := Ideal) S_ .f32 0x00000000#32)) idx u = Cert.Routing.sumRows 100000 idx u := by
  funext i
  obtain ⟨n, k, rfl⟩ : ∃ (n : Fin 100000) (k : Fin 4), i = ix2 n k := ⟨i 0, i 1, eq_ix2 i⟩
  have hr : Cert.Routing.rowOf (ix2 n k) = n := rfl
  have hc : Cert.Routing.colOf (ix2 n k) = k := rfl
  unfold Cert.Routing.sumRows
  rw [hr, hc, scatterAdd_ideal, Cert.RowIndexed.scatterAdd_rows2 scatter_S100000x4_S500000x1_S500000x4_1_0_0_1 rfl rfl rfl rfl, splat4_apply]

/-- A per-node sum of `[500000, 128]` rows from zero. -/
theorem sum128_eq (idx : IVec S500000x1 32) (u : S500000x128.Idx → EReal) :
    Host.scatterAdd scatter_S100000x128_S500000x1_S500000x128_1_0_0_1 (broadcastInDim S100000x128 ![] bcast_S_S100000x128 (constant (F := Ideal) S_ .f32 0x00000000#32)) idx u = Cert.Routing.sumRows 100000 idx u := by
  funext i
  obtain ⟨n, j, rfl⟩ : ∃ (n : Fin 100000) (j : Fin 128), i = ix2 n j := ⟨i 0, i 1, eq_ix2 i⟩
  have hr : Cert.Routing.rowOf (ix2 n j) = n := rfl
  have hc : Cert.Routing.colOf (ix2 n j) = j := rfl
  unfold Cert.Routing.sumRows
  rw [hr, hc, scatterAdd_ideal, Cert.RowIndexed.scatterAdd_rows2 scatter_S100000x128_S500000x1_S500000x128_1_0_0_1 rfl rfl rfl rfl, splat128_apply]

/-- The host's degree table: the softmax weights `p` summed per source node, floored, `1 / sqrt`. -/
theorem invTable_eq (idx : IVec S500000x1 32) (p : S500000x4.Idx → EReal) :
    Host.divf (broadcastInDim S100000x4 ![] bcast_S_S100000x4 (constant (F := Ideal) S_ .f32 0x3F800000#32))
      (Host.sqrt (maximumf (Host.scatterAdd scatter_S100000x4_S500000x1_S500000x4_1_0_0_1 (broadcastInDim S100000x4 ![] bcast_S_S100000x4 (constant (F := Ideal) S_ .f32 0x00000000#32)) idx p)
        (broadcastInDim S100000x4 ![] bcast_S_S100000x4 (constant (F := Ideal) S_ .f32 0x322BCC77#32))))
      = Cert.Routing.invSqrtDeg idx p := by
  rw [sum4_eq]
  funext i
  simp only [Host.divf, Host.sqrt, maximumf, splat4_apply, Ideal.hostDivf_def, Ideal.hostUnary_sqrt_def,
    Ideal.maximumf_def, Cert.Routing.invSqrtDeg]
  rw [splat4_apply, splat4_apply]

/-! ## After the first region: its output is the softmax; the arguments are as launched -/

theorem W1_arg0 (c : Dev nD) : W1 m ρ c (Proc.devRef .tc main_arg0) = (m ((c : Thread nD τ).loc main_arg0)) :=
  (W1_of_ne m ρ c main_arg0 (by decide)).trans rfl
theorem W1_arg4 (c : Dev nD) : W1 m ρ c (Proc.devRef .tc main_arg4) = (m ((c : Thread nD τ).loc main_arg4)) :=
  (W1_of_ne m ρ c main_arg4 (by decide)).trans rfl
theorem W1_arg5 (c : Dev nD) : W1 m ρ c (Proc.devRef .tc main_arg5) = (m ((c : Thread nD τ).loc main_arg5)) :=
  (W1_of_ne m ρ c main_arg5 (by decide)).trans rfl
theorem W1_v0 (c : Dev nD) : W1 m ρ c (Proc.devRef .tc main_v0) = (Cert.Routing.softmax (m ((c : Thread nD τ).loc main_arg1))) :=
  (W1_arr m ρ c 1).trans (Cert.KernelIdeal.SoftmaxRegion.final0 (V0 m ρ) c)

/-! ## After the first stretch of host operations: the degree table's rows and the feature rows, picked -/

theorem W2_arg4 (c : Dev nD) : W2 m ρ c (Proc.devRef .tc main_arg4) = (m ((c : Thread nD τ).loc main_arg4)) := by
  show StableHlo.after hostOps1 (W1 m ρ c) (Proc.devRef .tc main_arg4) = _
  simp only [hostOps1]
  after_results_simp
  exact W1_arg4 m ρ c

theorem W2_v0 (c : Dev nD) : W2 m ρ c (Proc.devRef .tc main_v0) = (Cert.Routing.softmax (m ((c : Thread nD τ).loc main_arg1))) := by
  show StableHlo.after hostOps1 (W1 m ρ c) (Proc.devRef .tc main_v0) = _
  simp only [hostOps1]
  after_results_simp
  exact W1_v0 m ρ c

theorem W2_v15 (c : Dev nD) :
    W2 m ρ c (Proc.devRef .tc main_v15) = Cert.Routing.takeRows (by decide) (Cert.Routing.invSqrtDeg (asCol (m ((c : Thread nD τ).loc main_arg4))) (Cert.Routing.softmax (m ((c : Thread nD τ).loc main_arg1)))) (wrapCol (m ((c : Thread nD τ).loc main_arg4))) := by
  show StableHlo.after hostOps1 (W1 m ρ c) (Proc.devRef .tc main_v15) = _
  simp only [hostOps1]
  after_results_simp
  rw [invTable_eq, pick4_eq, W1_arg4, W1_v0]

theorem W2_v22 (c : Dev nD) :
    W2 m ρ c (Proc.devRef .tc main_v22) = Cert.Routing.takeRows (by decide) (Cert.Routing.invSqrtDeg (asCol (m ((c : Thread nD τ).loc main_arg4))) (Cert.Routing.softmax (m ((c : Thread nD τ).loc main_arg1)))) (wrapCol (m ((c : Thread nD τ).loc main_arg5))) := by
  show StableHlo.after hostOps1 (W1 m ρ c) (Proc.devRef .tc main_v22) = _
  simp only [hostOps1]
  after_results_simp
  rw [invTable_eq, pick4_eq, W1_arg4, W1_arg5, W1_v0]

theorem W2_v29 (c : Dev nD) : W2 m ρ c (Proc.devRef .tc main_v29) = (Cert.Routing.takeRows (by decide) (m ((c : Thread nD τ).loc main_arg0)) (wrapCol (m ((c : Thread nD τ).loc main_arg5)))) := by
  show StableHlo.after hostOps1 (W1 m ρ c) (Proc.devRef .tc main_v29) = _
  simp only [hostOps1]
  after_results_simp
  rw [pick128_eq, W1_arg0, W1_arg5]

/-! ## After the second region: its output is the edge messages; its inputs are as it found them -/

theorem W3_v30 (c : Dev nD) : W3 m ρ c (Proc.devRef .tc main_v30) = (Cert.Routing.edgeVal (Cert.Routing.softmax (m ((c : Thread nD τ).loc main_arg1))) (Cert.Routing.takeRows (by decide) (Cert.Routing.invSqrtDeg (asCol (m ((c : Thread nD τ).loc main_arg4))) (Cert.Routing.softmax (m ((c : Thread nD τ).loc main_arg1)))) (wrapCol (m ((c : Thread nD τ).loc main_arg4))))
        (Cert.Routing.takeRows (by decide) (Cert.Routing.invSqrtDeg (asCol (m ((c : Thread nD τ).loc main_arg4))) (Cert.Routing.softmax (m ((c : Thread nD τ).loc main_arg1)))) (wrapCol (m ((c : Thread nD τ).loc main_arg5)))) (Cert.Routing.takeRows (by decide) (m ((c : Thread nD τ).loc main_arg0)) (wrapCol (m ((c : Thread nD τ).loc main_arg5))))) := by
  refine (W3_arr m ρ c 4).trans ((Cert.KernelIdeal.MessageRegion.final1 (V2 m ρ) c).trans ?_)
  show Cert.Routing.edgeVal (W2 m ρ c (Proc.devRef .tc main_v0)) (W2 m ρ c (Proc.devRef .tc main_v15))
    (W2 m ρ c (Proc.devRef .tc main_v22)) (W2 m ρ c (Proc.devRef .tc main_v29)) = _
  rw [W2_v0, W2_v15, W2_v22, W2_v29]

theorem W3_v29 (c : Dev nD) : W3 m ρ c (Proc.devRef .tc main_v29) = (Cert.Routing.takeRows (by decide) (m ((c : Thread nD τ).loc main_arg0)) (wrapCol (m ((c : Thread nD τ).loc main_arg5)))) :=
  (W3_arr m ρ c 3).trans (((dat1 (V2 m ρ) c).arrAt_in 3 rfl _).trans ((A_eq1 (V2 m ρ) c 3).trans (W2_v29 m ρ c)))

theorem W3_arg4 (c : Dev nD) : W3 m ρ c (Proc.devRef .tc main_arg4) = (m ((c : Thread nD τ).loc main_arg4)) :=
  (W3_of_ne m ρ c main_arg4 (by decide)).trans (W2_arg4 m ρ c)

/-! ## After the second stretch: the messages summed per source node, and their rows picked at the source -/

theorem W4_v33 (c : Dev nD) : W4 m ρ c (Proc.devRef .tc main_v33) = (Cert.Routing.sumRows 100000 (asCol (m ((c : Thread nD τ).loc main_arg4)))
      (Cert.Routing.edgeVal (Cert.Routing.softmax (m ((c : Thread nD τ).loc main_arg1))) (Cert.Routing.takeRows (by decide) (Cert.Routing.invSqrtDeg (asCol (m ((c : Thread nD τ).loc main_arg4))) (Cert.Routing.softmax (m ((c : Thread nD τ).loc main_arg1)))) (wrapCol (m ((c : Thread nD τ).loc main_arg4))))
        (Cert.Routing.takeRows (by decide) (Cert.Routing.invSqrtDeg (asCol (m ((c : Thread nD τ).loc main_arg4))) (Cert.Routing.softmax (m ((c : Thread nD τ).loc main_arg1)))) (wrapCol (m ((c : Thread nD τ).loc main_arg5)))) (Cert.Routing.takeRows (by decide) (m ((c : Thread nD τ).loc main_arg0)) (wrapCol (m ((c : Thread nD τ).loc main_arg5)))))) := by
  show StableHlo.after hostOps2 (W3 m ρ c) (Proc.devRef .tc main_v33) = _
  simp only [hostOps2]
  after_results_simp
  rw [sum128_eq, W3_arg4, W3_v30]

theorem W4_v40 (c : Dev nD) :
    W4 m ρ c (Proc.devRef .tc main_v40) = Cert.Routing.takeRows (by decide) (Cert.Routing.sumRows 100000 (asCol (m ((c : Thread nD τ).loc main_arg4)))
      (Cert.Routing.edgeVal (Cert.Routing.softmax (m ((c : Thread nD τ).loc main_arg1))) (Cert.Routing.takeRows (by decide) (Cert.Routing.invSqrtDeg (asCol (m ((c : Thread nD τ).loc main_arg4))) (Cert.Routing.softmax (m ((c : Thread nD τ).loc main_arg1)))) (wrapCol (m ((c : Thread nD τ).loc main_arg4))))
        (Cert.Routing.takeRows (by decide) (Cert.Routing.invSqrtDeg (asCol (m ((c : Thread nD τ).loc main_arg4))) (Cert.Routing.softmax (m ((c : Thread nD τ).loc main_arg1)))) (wrapCol (m ((c : Thread nD τ).loc main_arg5)))) (Cert.Routing.takeRows (by decide) (m ((c : Thread nD τ).loc main_arg0)) (wrapCol (m ((c : Thread nD τ).loc main_arg5)))))) (wrapCol (m ((c : Thread nD τ).loc main_arg4))) := by
  show StableHlo.after hostOps2 (W3 m ρ c) (Proc.devRef .tc main_v40) = _
  simp only [hostOps2]
  after_results_simp
  rw [sum128_eq, pick128_eq, W3_arg4, W3_v30]

theorem W4_v29 (c : Dev nD) : W4 m ρ c (Proc.devRef .tc main_v29) = (Cert.Routing.takeRows (by decide) (m ((c : Thread nD τ).loc main_arg0)) (wrapCol (m ((c : Thread nD τ).loc main_arg5)))) := by
  show StableHlo.after hostOps2 (W3 m ρ c) (Proc.devRef .tc main_v29) = _
  simp only [hostOps2]
  after_results_simp
  exact W3_v29 m ρ c

/-! ## The two results -/

/-- THE FIRST RESULT after the run: the messages summed per source node. -/
theorem result0 (c : Dev nD) :
    W5 m ρ c (Proc.devRef .tc main_v33)
      = Cert.Routing.messages (m ((c : Thread nD τ).loc main_arg0)) (m ((c : Thread nD τ).loc main_arg1))
          (asCol (m ((c : Thread nD τ).loc main_arg4))) (wrapCol (m ((c : Thread nD τ).loc main_arg4)))
          (wrapCol (m ((c : Thread nD τ).loc main_arg5))) :=
  (W5_of_ne m ρ c main_v33 (by decide)).trans ((W4_v33 m ρ c).trans rfl)

/-- THE SECOND RESULT after the run: each edge's new capsule logits. -/
theorem result1 (c : Dev nD) :
    W5 m ρ c (Proc.devRef .tc main_v41)
      = Cert.Routing.newWeights (m ((c : Thread nD τ).loc main_arg0)) (m ((c : Thread nD τ).loc main_arg1))
          (asCol (m ((c : Thread nD τ).loc main_arg4))) (wrapCol (m ((c : Thread nD τ).loc main_arg4)))
          (wrapCol (m ((c : Thread nD τ).loc main_arg5))) := by
  refine (W5_arr m ρ c 2).trans ((Cert.KernelIdeal.CombineRegion.final2 (V4 m ρ) c).trans ?_)
  show Cert.Routing.combine (W4 m ρ c (Proc.devRef .tc main_v40)) (W4 m ρ c (Proc.devRef .tc main_v29)) = _
  rw [W4_v40, W4_v29]
  rfl

end Cert.KernelIdeal.Results

end
-- ==== Proof.RefSoftmax.lean ====
/-
  The reference's softmax stage on the extended reals. The reference reduces each edge's four logits by `max` from −∞,
  takes the maximum of that with −∞ once more (the identity), broadcasts it back over the row, subtracts, exponentiates,
  sums the four exponentials from zero, broadcasts the sum and divides: index by index `Routing.softmax`.
-/
import proofs.«134220_j71279277244617_1_alg».proof.Proof.Gen.ReferenceIdeal.Run
import proofs.«134220_j71279277244617_1_alg».proof.Proof.Gen.ReferenceIdeal.Read
import proofs.«134220_j71279277244617_1_alg».proof.Proof.Routing
import Idealize.ShloMosaic.Lib.Pipeline.Value
import Idealize.ShloMosaic.Lib.ValueLayout
import Idealize.ShloMosaic.PureOps.Ideal.Laws

set_option maxRecDepth 16384

noncomputable section

namespace Cert.ReferenceIdeal.Results

open Cert.ReferenceIdeal Cert.ReferenceIdeal.Gen Cert.ReferenceIdeal.Read
open Idealize.ShloMosaic Idealize.ShloMosaic.TcCoe Idealize.SL.Sem Idealize.ShloMosaic.ValueIdx

variable (x0 : (⟨S100000x128, .f32⟩ : BufTy).Contents (Elt Ideal)) (x1 : (⟨S500000x4, .f32⟩ : BufTy).Contents (Elt Ideal))
  (x4 x5 : (⟨S500000, .i32⟩ : BufTy).Contents (Elt Ideal))

/-- Taking the maximum of a running maximum with the value it started from changes nothing: the start value is
    already below the running maximum. -/
private theorem max_init_fold {ι : Type} (s : Finset ι) (a : EReal) (f : ι → EReal) :
    max a (s.fold max a f) = s.fold max a f :=
  max_eq_right ((Finset.le_fold_max a).2 (Or.inl le_rfl))

/-- The max-reduce along the second axis, read at edge `e`: the running maximum from −∞ over the four logits of row
    `e`. The reduce's source index over `e` with coordinate `k` inserted is `(e, k)`. -/
private theorem v1_read (e : Fin 500000) :
    val_main_v1 (F := Ideal) x1 (ix1 e) = Cert.Routing.rowMax x1 e := by
  unfold val_main_v1 Cert.Routing.rowMax
  refine (Host.reduce_eq_fold_single (FloatOps.maximumf (F := Ideal) (φ := .f32)) x1 (val_main_cst (F := Ideal))
    reducesTo_S500000x4_S500000_d1 (by decide) h_S_ (ix1 e)).trans ?_
  exact Finset.fold_congr (fun k _ =>
    congrArg x1 (funext fun a => Fin.ext (by match a with | ⟨0, _⟩ => rfl | ⟨1, _⟩ => rfl)))

/-- The second maximum, against a row of −∞, is idle: −∞ is the value the running maximum started from. -/
private theorem v3_read (e : Fin 500000) :
    val_main_v3 (F := Ideal) x1 (ix1 e) = Cert.Routing.rowMax x1 e := by
  rw [val_main_v3_apply, val_main_v2_apply, val_main_cst_0_apply, v1_read]
  exact max_init_fold _ _ _

/-- A logit minus its row's maximum: the two broadcasts carry `(e, k)` to `(e, 0)` and then to `e`. -/
private theorem v6_read (e : Fin 500000) (k : Fin 4) :
    val_main_v6 (F := Ideal) x1 (ix2 e k) = x1 (ix2 e k) - Cert.Routing.rowMax x1 e := by
  rw [val_main_v6_apply, val_main_v5_apply, val_main_v4_apply]
  refine congrArg (x1 (ix2 e k) - ·) ?_
  refine Eq.trans (congrArg (val_main_v3 (F := Ideal) x1) ?_) (v3_read x1 e)
  exact funext fun a => Fin.ext (by match a with | ⟨0, _⟩ => rfl)

/-- The exponential of the shifted logit. -/
private theorem v7_read (e : Fin 500000) (k : Fin 4) :
    val_main_v7 (F := Ideal) x1 (ix2 e k) = Ideal.exp (x1 (ix2 e k) - Cert.Routing.rowMax x1 e) := by
  rw [val_main_v7_apply, v6_read]
  rfl

/-- The sum of a row's four exponentials: it starts from the zero word, which is the real 0. -/
private theorem v8_read (e : Fin 500000) :
    val_main_v8 (F := Ideal) x1 (ix1 e) = ∑ k : Fin 4, Ideal.exp (x1 (ix2 e k) - Cert.Routing.rowMax x1 e) := by
  rw [val_main_v8_apply, val_main_cst_1_apply]
  refine (congrArg (· + _) Ideal.ofBits_zero_f32).trans ?_
  rw [zero_add]
  refine Finset.sum_congr rfl fun k _ => ?_
  refine Eq.trans (congrArg (val_main_v7 (F := Ideal) x1) ?_) (v7_read x1 e k)
  exact funext fun a => Fin.ext (by match a with | ⟨0, _⟩ => rfl | ⟨1, _⟩ => rfl)

/-- The reference's normalised capsule weights are the softmax of the logits. -/
theorem softmax_eq : val_main_v11 (F := Ideal) x1 = Cert.Routing.softmax x1 := by
  funext i
  obtain ⟨e, k, rfl⟩ : ∃ (e : Fin 500000) (k : Fin 4), i = ix2 e k := ⟨i 0, i 1, eq_ix2 i⟩
  -- numerator: the exponential at (e, k); denominator: the row's sum, broadcast back from e through (e, 0)
  rw [val_main_v11_apply, val_main_v10_apply, val_main_v9_apply, v7_read]
  show Ideal.div _ _ = Ideal.div _ _
  refine congrArg (Ideal.div _) ?_
  refine Eq.trans (congrArg (val_main_v8 (F := Ideal) x1) ?_) (v8_read x1 e)
  exact funext fun a => Fin.ext (by match a with | ⟨0, _⟩ => rfl)

end Cert.ReferenceIdeal.Results

end
-- ==== Proof.RefWeights.lean ====
/-
  The reference's degree table and edge weights on the extended reals. The softmax weights are summed per source node by a
  row scatter-add from zero, floored, square-rooted and inverted (`Routing.invSqrtDeg`); an edge's weight is its softmax
  weight times that table's row at its source, times its row at its target — both picks row gathers through an index
  column with a negative index wrapped.
-/
import proofs.«134220_j71279277244617_1_alg».proof.Proof.Gen.ReferenceIdeal.Run
import proofs.«134220_j71279277244617_1_alg».proof.Proof.Gen.ReferenceIdeal.Read
import proofs.«134220_j71279277244617_1_alg».proof.Proof.Routing
import proofs.«134220_j71279277244617_1_alg».proof.Proof.RefSoftmax
import Idealize.ShloMosaic.Lib.Pipeline.Value
import Idealize.ShloMosaic.Lib.ValueLayout
import Idealize.ShloMosaic.PureOps.Ideal.Laws

set_option maxRecDepth 16384

noncomputable section

namespace Cert.ReferenceIdeal.Results

open Cert.ReferenceIdeal Cert.ReferenceIdeal.Gen Cert.ReferenceIdeal.Read
open Idealize.ShloMosaic Idealize.ShloMosaic.TcCoe Idealize.SL.Sem Idealize.ShloMosaic.ValueIdx

variable (x0 : (⟨S100000x128, .f32⟩ : BufTy).Contents (Elt Ideal)) (x1 : (⟨S500000x4, .f32⟩ : BufTy).Contents (Elt Ideal))
  (x4 x5 : (⟨S500000, .i32⟩ : BufTy).Contents (Elt Ideal))

/-- On the extended reals the accumulating scatter is the exact sum, whatever the operands. -/
private theorem scatterAdd_ideal {s si su : Shape} {w : Nat} (d : ScatterDims s si su) (x : s.Idx → EReal) (idx : IVec si w)
    (u : su.Idx → EReal) :
    Host.scatterAdd (F := Ideal) (φ := .f32) d x idx u = Ideal.hostScatterAdd d x idx u := rfl

/-- A per-node sum read at node `n`, column `k`: the index's coordinates are `n` and `k` themselves. -/
private theorem sumRows_ix2 (idx : IVec Cert.Routing.E1 32) (p : Cert.Routing.EC.Idx → EReal) (n : Fin 100000) (k : Fin 4) :
    Cert.Routing.sumRows 100000 idx p (ix2 n k)
      = Ideal.ofBits .f32 0x00000000#32
        + ∑ r ∈ Finset.univ.filter (fun r : Fin 500000 => Cert.RowIndexed.rowTarget 100000 idx r = some n), p (ix2 r k) := rfl

/-- A row pick read at edge `e`, column `k`: the table at the clamped row, same column. -/
private theorem takeRows_ix2 (t : Cert.Routing.NC.Idx → EReal) (idx : IVec Cert.Routing.E1 32) (e : Fin 500000) (k : Fin 4) :
    Cert.Routing.takeRows (by decide) t idx (ix2 e k) = t (ix2 (Cert.RowIndexed.clampRow 100000 (by decide) idx e) k) := rfl

/-- The degree table at node `n`, capsule `k`: zero plus the softmax weights of the edges whose source column names `n`.
    The scatter starts from the zero table, its updates are the softmax weights, and an update row lands on the node its
    index names, so the row scatter-add lemma gives exactly the per-node sum. -/
private theorem degree_apply (n : Fin 100000) (k : Fin 4) :
    val_main_v14 (F := Ideal) x1 x4 (ix2 n k)
      = Cert.Routing.sumRows 100000 (val_main_v13 (F := Ideal) x4) (Cert.Routing.softmax x1) (ix2 n k) := by
  unfold val_main_v14
  rw [softmax_eq]
  generalize Cert.Routing.softmax x1 = p
  generalize val_main_v13 (F := Ideal) x4 = idx
  rw [sumRows_ix2, scatterAdd_ideal]
  refine (Cert.RowIndexed.scatterAdd_rows2 scatter_S100000x4_S500000x1_S500000x4_1_0_0_1 rfl rfl rfl rfl
    (val_main_v12 (F := Ideal)) idx p n k).trans ?_
  -- the operand is the zero splat
  rw [val_main_v12_apply, val_main_cst_2_apply, Ideal.ofBits_def]

/-- The reference's `1 / sqrt` degree table. -/
theorem invSqrtDeg_eq :
    val_main_v19 (F := Ideal) x1 x4 = Cert.Routing.invSqrtDeg (val_main_v13 (F := Ideal) x4) (Cert.Routing.softmax x1) := by
  funext i
  obtain ⟨n, k, rfl⟩ : ∃ (n : Fin 100000) (k : Fin 4), i = ix2 n k := ⟨i 0, i 1, eq_ix2 i⟩
  -- elementwise: one over the square root of the floored degree, the degree being the per-node sum
  rw [val_main_v19_apply, val_main_v18_apply, val_main_cst_4_apply, val_main_v17_apply, val_main_v16_apply,
    val_main_v15_apply, val_main_cst_3_apply, degree_apply]
  unfold Cert.Routing.invSqrtDeg
  generalize Cert.Routing.sumRows 100000 (val_main_v13 (F := Ideal) x4) (Cert.Routing.softmax x1) (ix2 n k) = d
  simp only [Ideal.hostDivf_def, Ideal.hostUnary_sqrt_def, Ideal.maximumf_def, Ideal.ofBits_def]

/-- The reference's edge weight at edge `e`, capsule `k`: `(p · s) · t`. -/
theorem weights_apply (e : Fin 500000) (k : Fin 4) :
    val_main_v35 (F := Ideal) x1 x4 x5 (ix2 e k)
      = (Cert.Routing.softmax x1 (ix2 e k)
          * Cert.Routing.takeRows (by decide) (Cert.Routing.invSqrtDeg (val_main_v13 (F := Ideal) x4) (Cert.Routing.softmax x1))
              (val_main_v25 (F := Ideal) x4) (ix2 e k))
        * Cert.Routing.takeRows (by decide) (Cert.Routing.invSqrtDeg (val_main_v13 (F := Ideal) x4) (Cert.Routing.softmax x1))
            (val_main_v33 (F := Ideal) x5) (ix2 e k) := by
  -- the product of the softmax weight with the two picked rows of the table
  rw [val_main_v35_apply, val_main_v27_apply]
  simp only [Ideal.mulf_def]
  unfold val_main_v26 val_main_v34
  rw [softmax_eq, invSqrtDeg_eq]
  generalize Cert.Routing.invSqrtDeg (val_main_v13 (F := Ideal) x4) (Cert.Routing.softmax x1) = t
  generalize Cert.Routing.softmax x1 = p
  generalize val_main_v25 (F := Ideal) x4 = srcW
  generalize val_main_v33 (F := Ideal) x5 = trgW
  -- each pick is a row gather: the table at the clamped index, same column
  rw [takeRows_ix2, takeRows_ix2,
    Cert.RowIndexed.gather_rows2 (by decide) gather_S100000x4_S500000x1_S500000x4_1_0_n_n_0_1_14
      rfl rfl rfl rfl rfl rfl rfl t srcW e k,
    Cert.RowIndexed.gather_rows2 (by decide) gather_S100000x4_S500000x1_S500000x4_1_0_n_n_0_1_14
      rfl rfl rfl rfl rfl rfl rfl t trgW e k]

end Cert.ReferenceIdeal.Results

end
-- ==== Proof.RefMessages.lean ====
/-
  The reference's messages on the extended reals. The reference works on feature rows reshaped `[·, 128] → [·, 4, 32]`:
  component `(c, d)` of a reshaped row is lane `32 c + d` of the row. A row gather and a row scatter-add act on rows
  only, so each commutes with that reshape: the picked target rows at `(e, c, d)` are `Routing.takeRows` at
  `(e, 32 c + d)`, the message at `(e, c, d)` is `Routing.edgeVal` there, the per-node sum at `(n, c, d)` is
  `Routing.messages` at `(n, 32 c + d)`, and the final reshape back to `[·, 128]` gives `Routing.messages` itself.
-/
import proofs.«134220_j71279277244617_1_alg».proof.Proof.Gen.ReferenceIdeal.Run
import proofs.«134220_j71279277244617_1_alg».proof.Proof.Gen.ReferenceIdeal.Read
import proofs.«134220_j71279277244617_1_alg».proof.Proof.Routing
import proofs.«134220_j71279277244617_1_alg».proof.Proof.RefWeights
import Idealize.ShloMosaic.Lib.Pipeline.Value
import Idealize.ShloMosaic.Lib.ValueLayout
import Idealize.ShloMosaic.PureOps.Ideal.Laws

set_option maxRecDepth 16384

noncomputable section

namespace Cert.ReferenceIdeal.Results

open Cert.ReferenceIdeal Cert.ReferenceIdeal.Gen Cert.ReferenceIdeal.Read
open Idealize.ShloMosaic Idealize.ShloMosaic.TcCoe Idealize.SL.Sem Idealize.ShloMosaic.ValueIdx

variable (x0 : (⟨S100000x128, .f32⟩ : BufTy).Contents (Elt Ideal)) (x1 : (⟨S500000x4, .f32⟩ : BufTy).Contents (Elt Ideal))
  (x4 x5 : (⟨S500000, .i32⟩ : BufTy).Contents (Elt Ideal))

/-- The three index columns the reference builds from the target indices are one and the same term, and so are the two it
    builds from the source indices. -/
private theorem targetColumn_second : val_main_v41 (F := Ideal) x5 = val_main_v33 (F := Ideal) x5 := rfl
private theorem targetColumn_third : val_main_v69 (F := Ideal) x5 = val_main_v33 (F := Ideal) x5 := rfl
private theorem sourceColumn_second : val_main_v47 (F := Ideal) x4 = val_main_v13 (F := Ideal) x4 := rfl

/-- Capsule `k` owns lane `32 k + d`. -/
private theorem capOf_lane (k : Fin 4) (d : Fin 32) : Cert.Routing.capOf (Cert.Routing.lane k d) = k :=
  Fin.ext (by have hk := k.isLt; have hd := d.isLt; show (32 * k.val + d.val) / 32 = k.val; omega)

/-- Component `(k, d)` of a reshaped feature row is lane `32 k + d` of the row: the flat position
    `(r · 4 + k) · 32 + d` is `r · 128 + (32 k + d)`. -/
private theorem reshaped_row (r : Fin 100000) (k : Fin 4) (d : Fin 32) :
    val_main_v0 (F := Ideal) x0 (ix3 r k d) = x0 (ix2 r (Cert.Routing.lane k d)) := by
  rw [val_main_v0_apply]
  refine congrArg x0 (funext fun a => ?_)
  have hk := k.isLt
  have hd := d.isLt
  match a with
  | ⟨0, _⟩ => exact Fin.ext (by show ((r.val * 4 + k.val) * 32 + d.val) / 128 = r.val; omega)
  | ⟨1, _⟩ => exact Fin.ext (by show ((r.val * 4 + k.val) * 32 + d.val) % 128 = 32 * k.val + d.val; omega)

/-- A row gather of the reshaped rows by any index column is the pick of the unreshaped rows at the matching lane: the
    gather moves whole rows, the reshape only renames a row's positions. -/
private theorem gathered_rows (idx : IVec Cert.Routing.E1 32) (e : Fin 500000) (k : Fin 4) (d : Fin 32) :
    Host.gather gather_S100000x4x32_S500000x1_S500000x4x32_12_0_n_n_0_1_1432 (val_main_v0 (F := Ideal) x0) idx (ix3 e k d)
      = Cert.Routing.takeRows (by decide) x0 idx (ix2 e (Cert.Routing.lane k d)) :=
  (Cert.RowIndexed.gather_rows3 (N := 100000) (A := 4) (B := 32) (R := 500000) (by decide)
    gather_S100000x4x32_S500000x1_S500000x4x32_12_0_n_n_0_1_1432 rfl rfl rfl rfl rfl rfl rfl
    (val_main_v0 (F := Ideal) x0) idx e k d).trans (reshaped_row x0 _ k d)

/-- The reference's feature rows picked at the target, component `(c, d)` of edge `e` (both times it picks them). -/
theorem features_apply (e : Fin 500000) (k : Fin 4) (d : Fin 32) :
    val_main_v42 (F := Ideal) x0 x5 (ix3 e k d)
      = Cert.Routing.takeRows (by decide) x0 (val_main_v33 (F := Ideal) x5) (ix2 e (Cert.Routing.lane k d)) := by
  unfold val_main_v42
  rw [targetColumn_second]
  exact gathered_rows x0 _ e k d

theorem features'_apply (e : Fin 500000) (k : Fin 4) (d : Fin 32) :
    val_main_v70 (F := Ideal) x0 x5 (ix3 e k d)
      = Cert.Routing.takeRows (by decide) x0 (val_main_v33 (F := Ideal) x5) (ix2 e (Cert.Routing.lane k d)) := by
  unfold val_main_v70
  rw [targetColumn_third]
  exact gathered_rows x0 _ e k d

/-- The edge weight spread over a capsule's 32 components: the two broadcasts read the weight at `(e, k)` whatever `d`. -/
private theorem spread_weight (e : Fin 500000) (k : Fin 4) (d : Fin 32) :
    val_main_v44 (F := Ideal) x1 x4 x5 (ix3 e k d) = val_main_v35 (F := Ideal) x1 x4 x5 (ix2 e k) := by
  rw [val_main_v44_apply, val_main_v43_apply]
  refine congrArg (val_main_v35 (F := Ideal) x1 x4 x5) (funext fun a => ?_)
  match a with
  | ⟨0, _⟩ => rfl
  | ⟨1, _⟩ => rfl

/-- An edge's message at lane `32 k + d`: the lane belongs to capsule `k`, so the scale is the weight at `(e, k)`. -/
private theorem edgeVal_lane (p s t : Cert.Routing.EC.Idx → EReal) (x : Cert.Routing.EF.Idx → EReal)
    (e : Fin 500000) (k : Fin 4) (d : Fin 32) :
    Cert.Routing.edgeVal p s t x (ix2 e (Cert.Routing.lane k d))
      = x (ix2 e (Cert.Routing.lane k d)) * ((p (ix2 e k) * s (ix2 e k)) * t (ix2 e k)) := by
  show x (ix2 e (Cert.Routing.lane k d))
      * ((p (ix2 e (Cert.Routing.capOf (Cert.Routing.lane k d))) * s (ix2 e (Cert.Routing.capOf (Cert.Routing.lane k d))))
        * t (ix2 e (Cert.Routing.capOf (Cert.Routing.lane k d)))) = _
  rw [capOf_lane]

/-- The reference's message at `(e, c, d)`. -/
theorem edgeVal_apply (e : Fin 500000) (k : Fin 4) (d : Fin 32) :
    val_main_v45 (F := Ideal) x0 x1 x4 x5 (ix3 e k d)
      = Cert.Routing.edgeVal (Cert.Routing.softmax x1)
          (Cert.Routing.takeRows (by decide) (Cert.Routing.invSqrtDeg (val_main_v13 (F := Ideal) x4) (Cert.Routing.softmax x1)) (val_main_v25 (F := Ideal) x4))
          (Cert.Routing.takeRows (by decide) (Cert.Routing.invSqrtDeg (val_main_v13 (F := Ideal) x4) (Cert.Routing.softmax x1)) (val_main_v33 (F := Ideal) x5))
          (Cert.Routing.takeRows (by decide) x0 (val_main_v33 (F := Ideal) x5)) (ix2 e (Cert.Routing.lane k d)) := by
  refine ((val_main_v45_apply (F := Ideal) x0 x1 x4 x5 (ix3 e k d)).trans ?_).trans (edgeVal_lane _ _ _ _ e k d).symm
  rw [features_apply, spread_weight, weights_apply]
  exact Ideal.mulf_def _ _

/-- On the extended reals the accumulating scatter is the exact sum of the updates landing on each element. -/
private theorem scatterAdd_exact {s si su : Shape} {w : Nat} (d : ScatterDims s si su) (x : s.Idx → EReal)
    (idx : IVec si w) (upd : su.Idx → EReal) :
    Host.scatterAdd (F := Ideal) (φ := .f32) d x idx upd = Ideal.hostScatterAdd d x idx upd := rfl

/-- The row scatter-add of the reshaped rows, from zero, is the per-node sum of the unreshaped rows at the matching lane:
    whatever the updates are, if `u` at `(r, k, d)` is `v` at `(r, 32 k + d)` for every row, the sums over the rows landing
    on node `n` agree term by term. -/
private theorem summed_rows (src : IVec Cert.Routing.E1 32) (u : S500000x4x32.Idx → EReal) (v : Cert.Routing.EF.Idx → EReal)
    (huv : ∀ (r : Fin 500000) (k : Fin 4) (d : Fin 32), u (ix3 r k d) = v (ix2 r (Cert.Routing.lane k d)))
    (n : Fin 100000) (k : Fin 4) (d : Fin 32) :
    Host.scatterAdd (F := Ideal) (φ := .f32) scatter_S100000x4x32_S500000x1_S500000x4x32_12_0_0_1
        (val_main_v46 (F := Ideal)) src u (ix3 n k d)
      = Cert.Routing.sumRows 100000 src v (ix2 n (Cert.Routing.lane k d)) := by
  rw [scatterAdd_exact]
  refine (Cert.RowIndexed.scatterAdd_rows3 (N := 100000) (A := 4) (B := 32) (R := 500000)
    scatter_S100000x4x32_S500000x1_S500000x4x32_12_0_0_1 rfl rfl rfl rfl
    (val_main_v46 (F := Ideal)) src u n k d).trans ?_
  rw [val_main_v46_apply, val_main_cst_10_apply, Ideal.ofBits_def]
  unfold Cert.Routing.sumRows
  refine congrArg (fun z => Ideal.ofBits FTy.f32 0x00000000#32 + z) ?_
  exact Finset.sum_congr rfl (fun r _ => huv r k d)

/-- The reference's per-node sum of messages at `(n, c, d)`. -/
theorem messages_apply (n : Fin 100000) (k : Fin 4) (d : Fin 32) :
    val_main_v48 (F := Ideal) x0 x1 x4 x5 (ix3 n k d)
      = Cert.Routing.messages x0 x1 (val_main_v13 (F := Ideal) x4) (val_main_v25 (F := Ideal) x4) (val_main_v33 (F := Ideal) x5)
          (ix2 n (Cert.Routing.lane k d)) := by
  unfold val_main_v48 Cert.Routing.messages
  rw [sourceColumn_second]
  exact summed_rows _ _ _ (fun r k d => edgeVal_apply x0 x1 x4 x5 r k d) n k d

/-- THE REFERENCE'S FIRST RESULT. The reshape back reads `(n, l / 32, l % 32)` for lane `l`, and `32 (l / 32) + l % 32 = l`. -/
theorem out0_eq :
    val_main_v82 (F := Ideal) x0 x1 x4 x5
      = Cert.Routing.messages x0 x1 (val_main_v13 (F := Ideal) x4) (val_main_v25 (F := Ideal) x4) (val_main_v33 (F := Ideal) x5) := by
  funext i
  obtain ⟨n, l, rfl⟩ : ∃ (n : Fin 100000) (l : Fin 128), i = ix2 n l := ⟨i 0, i 1, eq_ix2 i⟩
  have hl := l.isLt
  have hidx : idx_main_v82 (ix2 n l)
      = ix3 n (Cert.Routing.capOf l) (⟨l.val % 32, Nat.mod_lt _ (by decide)⟩ : Fin 32) := by
    funext a
    match a with
    | ⟨0, _⟩ => exact Fin.ext (by show (n.val * 128 + l.val) / 128 = n.val; omega)
    | ⟨1, _⟩ => exact Fin.ext (by show (n.val * 128 + l.val) / 32 % 4 = l.val / 32; omega)
    | ⟨2, _⟩ => exact Fin.ext (by show (n.val * 128 + l.val) % 32 = l.val % 32; omega)
  rw [val_main_v82_apply, hidx, messages_apply]
  refine congrArg (fun j => Cert.Routing.messages x0 x1 (val_main_v13 (F := Ideal) x4) (val_main_v25 (F := Ideal) x4)
    (val_main_v33 (F := Ideal) x5) (ix2 n j)) ?_
  exact Fin.ext (by show 32 * (l.val / 32) + l.val % 32 = l.val; omega)

end Cert.ReferenceIdeal.Results

end
-- ==== Proof.RefCombine.lean ====
/-
  The reference's new capsule logits on the extended reals. On rows reshaped `[·, 4, 32]` the reference squares, sums
  over the 32 components from zero, square-roots, floors, broadcasts back and divides — once for the message rows picked
  at the source, once for the feature rows picked at the target —, takes `tanh` of the second, multiplies and sums over
  the 32 components from zero: at `(e, c)` `Routing.combine` of the two picked arrays in their `[·, 128]` layout.
-/
import proofs.«134220_j71279277244617_1_alg».proof.Proof.Gen.ReferenceIdeal.Run
import proofs.«134220_j71279277244617_1_alg».proof.Proof.Gen.ReferenceIdeal.Read
import proofs.«134220_j71279277244617_1_alg».proof.Proof.Routing
import proofs.«134220_j71279277244617_1_alg».proof.Proof.RefMessages
import Idealize.ShloMosaic.Lib.Pipeline.Value
import Idealize.ShloMosaic.Lib.ValueLayout
import Idealize.ShloMosaic.PureOps.Ideal.Laws

set_option maxRecDepth 16384

noncomputable section

namespace Cert.ReferenceIdeal.Results

open Cert.ReferenceIdeal Cert.ReferenceIdeal.Gen Cert.ReferenceIdeal.Read
open Idealize.ShloMosaic Idealize.ShloMosaic.TcCoe Idealize.SL.Sem Idealize.ShloMosaic.ValueIdx

variable (x0 : (⟨S100000x128, .f32⟩ : BufTy).Contents (Elt Ideal)) (x1 : (⟨S500000x4, .f32⟩ : BufTy).Contents (Elt Ideal))
  (x4 x5 : (⟨S500000, .i32⟩ : BufTy).Contents (Elt Ideal))

/-- The source column with a negative index wrapped is built twice by the reference; the two are one term. -/
private theorem srcCol_eq : val_main_v54 (F := Ideal) x4 = val_main_v25 (F := Ideal) x4 := rfl

/-- The message rows picked at the source, component `(c, d)` of edge `e`: a row pick acts on rows only, so it is the
    pick of the `[·, 128]` messages read at lane `32 c + d`. -/
private theorem picked_apply (e : Fin 500000) (k : Fin 4) (d : Fin 32) :
    val_main_v55 (F := Ideal) x0 x1 x4 x5 (ix3 e k d)
      = Cert.Routing.takeRows (by decide)
          (Cert.Routing.messages x0 x1 (val_main_v13 (F := Ideal) x4) (val_main_v25 (F := Ideal) x4) (val_main_v33 (F := Ideal) x5))
          (val_main_v25 (F := Ideal) x4) (ix2 e (Cert.Routing.lane k d)) := by
  unfold val_main_v55
  rw [srcCol_eq]
  have hy := messages_apply x0 x1 x4 x5
  generalize val_main_v48 (F := Ideal) x0 x1 x4 x5 = y at hy ⊢
  refine (Cert.RowIndexed.gather_rows3 (by decide) _ rfl rfl rfl rfl rfl rfl rfl y _ e k d).trans ?_
  exact hy _ k d

/-- A `[·, 4, 32]` array that is a `[·, 128]` array read at lane `32 c + d`: dividing component `(c, d)` by the floored
    square root of the sum, from zero, of the capsule's 32 squares is `Routing.unitAt` of the `[·, 128]` array. -/
private theorem unit_of (v : S500000x4x32.Idx → EReal) (h : Cert.Routing.EF.Idx → EReal)
    (hv : ∀ e c d, v (ix3 e c d) = h (ix2 e (Cert.Routing.lane c d))) (e : Fin 500000) (c : Fin 4) (d : Fin 32) :
    Ideal.div (v (ix3 e c d))
        (max (Ideal.sqrt (Ideal.ofBits .f32 0x00000000#32 + ∑ k : Fin 32, v (ix3 e c k) * v (ix3 e c k)))
          (Ideal.ofBits .f32 0x2B8CBCCC#32))
      = Cert.Routing.unitAt h e c d := by
  rw [Ideal.ofBits_zero_f32, zero_add]
  unfold Cert.Routing.unitAt Cert.Routing.sqNorm
  rw [hv]
  refine congrArg (fun s => Ideal.div _ (max (Ideal.sqrt s) _)) ?_
  exact Finset.sum_congr rfl fun k _ => by rw [hv]

/-- The picked message rows, L2-normalised capsule by capsule as the reference does it on `[·, 4, 32]`. -/
private theorem srcUnit_apply (e : Fin 500000) (c : Fin 4) (d : Fin 32) :
    val_main_v63 (F := Ideal) x0 x1 x4 x5 (ix3 e c d)
      = Cert.Routing.unitAt (Cert.Routing.takeRows (by decide)
          (Cert.Routing.messages x0 x1 (val_main_v13 (F := Ideal) x4) (val_main_v25 (F := Ideal) x4) (val_main_v33 (F := Ideal) x5))
          (val_main_v25 (F := Ideal) x4)) e c d := by
  refine Eq.trans ?_ (unit_of (val_main_v55 (F := Ideal) x0 x1 x4 x5) _ (picked_apply x0 x1 x4 x5) e c d)
  have h62 : idx_main_v62 (ix3 e c d) = ix3 e c (0 : Fin 1) :=
    funext fun a => Fin.ext (by match a with | ⟨0, _⟩ => rfl | ⟨1, _⟩ => rfl | ⟨2, _⟩ => rfl)
  have h58 : idx_main_v58 (ix3 e c (0 : Fin 1)) = ix2 e c :=
    funext fun a => Fin.ext (by match a with | ⟨0, _⟩ => rfl | ⟨1, _⟩ => rfl)
  have hs : ∑ k : Fin 32, val_main_v56 (F := Ideal) x0 x1 x4 x5 (idx_main_v57 (ix2 e c) k)
      = ∑ k : Fin 32, (val_main_v55 (F := Ideal) x0 x1 x4 x5 : S500000x4x32.Idx → EReal) (ix3 e c k)
          * (val_main_v55 (F := Ideal) x0 x1 x4 x5 : S500000x4x32.Idx → EReal) (ix3 e c k) :=
    Finset.sum_congr rfl fun k _ => by
      have h57 : idx_main_v57 (ix2 e c) k = ix3 e c k :=
        funext fun a => Fin.ext (by match a with | ⟨0, _⟩ => rfl | ⟨1, _⟩ => rfl | ⟨2, _⟩ => rfl)
      rw [h57, val_main_v56_apply, Ideal.mulf_def]
  rw [val_main_v63_apply, Ideal.hostDivf_def, val_main_v62_apply, h62, val_main_v61_apply, Ideal.maximumf_def,
    val_main_v59_apply, Ideal.hostUnary_sqrt_def, val_main_v60_apply, val_main_cst_14_apply, Ideal.ofBits_def,
    val_main_v58_apply, h58, val_main_v57_apply, val_main_cst_13_apply, Ideal.ofBits_def, hs]

/-- The picked feature rows, L2-normalised the same way. -/
private theorem trgUnit_apply (e : Fin 500000) (c : Fin 4) (d : Fin 32) :
    val_main_v78 (F := Ideal) x0 x5 (ix3 e c d)
      = Cert.Routing.unitAt (Cert.Routing.takeRows (by decide) x0 (val_main_v33 (F := Ideal) x5)) e c d := by
  refine Eq.trans ?_ (unit_of (val_main_v70 (F := Ideal) x0 x5) _ (features'_apply x0 x5) e c d)
  have h77 : idx_main_v77 (ix3 e c d) = ix3 e c (0 : Fin 1) :=
    funext fun a => Fin.ext (by match a with | ⟨0, _⟩ => rfl | ⟨1, _⟩ => rfl | ⟨2, _⟩ => rfl)
  have h73 : idx_main_v73 (ix3 e c (0 : Fin 1)) = ix2 e c :=
    funext fun a => Fin.ext (by match a with | ⟨0, _⟩ => rfl | ⟨1, _⟩ => rfl)
  have hs : ∑ k : Fin 32, val_main_v71 (F := Ideal) x0 x5 (idx_main_v72 (ix2 e c) k)
      = ∑ k : Fin 32, (val_main_v70 (F := Ideal) x0 x5 : S500000x4x32.Idx → EReal) (ix3 e c k)
          * (val_main_v70 (F := Ideal) x0 x5 : S500000x4x32.Idx → EReal) (ix3 e c k) :=
    Finset.sum_congr rfl fun k _ => by
      have h72 : idx_main_v72 (ix2 e c) k = ix3 e c k :=
        funext fun a => Fin.ext (by match a with | ⟨0, _⟩ => rfl | ⟨1, _⟩ => rfl | ⟨2, _⟩ => rfl)
      rw [h72, val_main_v71_apply, Ideal.mulf_def]
  rw [val_main_v78_apply, Ideal.hostDivf_def, val_main_v77_apply, h77, val_main_v76_apply, Ideal.maximumf_def,
    val_main_v74_apply, Ideal.hostUnary_sqrt_def, val_main_v75_apply, val_main_cst_18_apply, Ideal.ofBits_def,
    val_main_v73_apply, h73, val_main_v72_apply, val_main_cst_17_apply, Ideal.ofBits_def, hs]

/-- The second result at edge `e`, capsule `c`. -/
private theorem out1_at (e : Fin 500000) (c : Fin 4) :
    val_main_v81 (F := Ideal) x0 x1 x4 x5 (ix2 e c)
      = Cert.Routing.newWeights x0 x1 (val_main_v13 (F := Ideal) x4) (val_main_v25 (F := Ideal) x4) (val_main_v33 (F := Ideal) x5)
          (ix2 e c) := by
  show _ = ∑ d : Fin 32,
    Cert.Routing.unitAt (Cert.Routing.takeRows (by decide)
        (Cert.Routing.messages x0 x1 (val_main_v13 (F := Ideal) x4) (val_main_v25 (F := Ideal) x4) (val_main_v33 (F := Ideal) x5))
        (val_main_v25 (F := Ideal) x4)) e c d
      * Ideal.tanh (Cert.Routing.unitAt (Cert.Routing.takeRows (by decide) x0 (val_main_v33 (F := Ideal) x5)) e c d)
  rw [val_main_v81_apply, val_main_cst_19_apply, Ideal.ofBits_def, Ideal.ofBits_zero_f32, zero_add]
  refine Finset.sum_congr rfl fun d _ => ?_
  have h81 : idx_main_v81 (ix2 e c) d = ix3 e c d :=
    funext fun a => Fin.ext (by match a with | ⟨0, _⟩ => rfl | ⟨1, _⟩ => rfl | ⟨2, _⟩ => rfl)
  rw [h81, val_main_v80_apply, Ideal.mulf_def, val_main_v79_apply, Ideal.hostUnary_tanh_def, srcUnit_apply, trgUnit_apply]

/-- THE REFERENCE'S SECOND RESULT. -/
theorem out1_eq :
    val_main_v81 (F := Ideal) x0 x1 x4 x5
      = Cert.Routing.newWeights x0 x1 (val_main_v13 (F := Ideal) x4) (val_main_v25 (F := Ideal) x4) (val_main_v33 (F := Ideal) x5) := by
  funext i
  have hi : i = ix2 (Cert.Routing.rowOf i) (Cert.Routing.colOf i) :=
    funext fun a => by match a with | ⟨0, _⟩ => rfl | ⟨1, _⟩ => rfl
  exact (congrArg _ hi).trans ((out1_at x0 x1 x4 x5 _ _).trans (congrArg _ hi.symm))

end Cert.ReferenceIdeal.Results

end
-- ==== Proof.lean ====
/-
  Kernel and reference compute ONE pair of functions of the argument arrays on the extended reals.

  The kernel program is three grid kernels among host operations: a softmax of each edge's four capsule logits; the
  edge messages (the target's feature row scaled capsule by capsule by the edge's weight); and, per edge and capsule,
  the dot product of the normalised summed-message row at the source with `tanh` of the normalised feature row at
  the target. Between them the host sums rows per node and picks rows by index. The reference does the same on feature
  rows reshaped `[·, 128] → [·, 4, 32]`. Both end at `Routing.messages` and `Routing.newWeights` of the argument
  arrays: no law of arithmetic is needed beyond reading each operation at an index — the two programs apply the same
  operations in the same order, and a row pick and a per-row sum commute with a reshape of the trailing axes. The
  precondition is never opened.
-/
import proofs.«134220_j71279277244617_1_alg».proof.Defs
import proofs.«134220_j71279277244617_1_alg».proof.Proof.Gen.Kernel
import proofs.«134220_j71279277244617_1_alg».proof.Proof.Gen.Kernel.Skeleton
import proofs.«134220_j71279277244617_1_alg».proof.Proof.Gen.Kernel.Launch
import proofs.«134220_j71279277244617_1_alg».proof.Proof.Gen.Kernel.Points
import proofs.«134220_j71279277244617_1_alg».proof.Proof.Gen.Kernel.Frame
import proofs.«134220_j71279277244617_1_alg».proof.Proof.Gen.KernelIdeal
import proofs.«134220_j71279277244617_1_alg».proof.Proof.Gen.KernelIdeal.Skeleton
import proofs.«134220_j71279277244617_1_alg».proof.Proof.Gen.KernelIdeal.Launch
import proofs.«134220_j71279277244617_1_alg».proof.Proof.Gen.KernelIdeal.Points
import proofs.«134220_j71279277244617_1_alg».proof.Proof.Gen.KernelIdeal.Frame
import proofs.«134220_j71279277244617_1_alg».proof.Proof.Gen.ReferenceIdeal
import proofs.«134220_j71279277244617_1_alg».proof.Proof.Gen.Pre_finite_inputs
import proofs.«134220_j71279277244617_1_alg».proof.Proof.Gen.ReferenceIdeal.Run
import proofs.«134220_j71279277244617_1_alg».proof.Proof.Gen.ReferenceIdeal.Read
import Idealize.ShloMosaic.Adequacy
import Idealize.ShloMosaic.Init
import proofs.«134220_j71279277244617_1_alg».proof.Proof.NamedRun
import proofs.«134220_j71279277244617_1_alg».proof.Proof.KernelResults
import proofs.«134220_j71279277244617_1_alg».proof.Proof.RefCombine

noncomputable section

namespace Cert.Proof

open Idealize.ShloMosaic Idealize.SL.Sem

/-- The word-level kernel program runs and leaves its arguments unchanged. -/
theorem frame_kernel [Cert.Kernel.Facts] [Cert.Pre_finite_inputs.Facts] : Cert.frame_Kernel :=
  fun m ρ _ => Cert.Kernel.Gen.frame m ρ

/-- So does the kernel program read on the extended reals. -/
theorem frame_kernelIdeal [Cert.KernelIdeal.Facts] [Cert.Pre_finite_inputs.Facts] : Cert.frame_KernelIdeal :=
  fun m ρ _ => Cert.KernelIdeal.Gen.frame m ρ

/-- The reference is host operations only: its frame is its run with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- The two results as functions of the kernel program's argument buffers, with the index columns as it builds them. -/
abbrev out0 [Cert.KernelIdeal.Facts] (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v33) :=
  Cert.Routing.messages (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (Cert.KernelIdeal.Results.asCol (m ((c.tc : Thread Cert.KernelIdeal.nD Cert.KernelIdeal.τ).loc Cert.KernelIdeal.main_arg4))) (Cert.KernelIdeal.Results.wrapCol (m ((c.tc : Thread Cert.KernelIdeal.nD Cert.KernelIdeal.τ).loc Cert.KernelIdeal.main_arg4)))
    (Cert.KernelIdeal.Results.wrapCol (m ((c.tc : Thread Cert.KernelIdeal.nD Cert.KernelIdeal.τ).loc Cert.KernelIdeal.main_arg5)))
abbrev out1 [Cert.KernelIdeal.Facts] (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v41) :=
  Cert.Routing.newWeights (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (Cert.KernelIdeal.Results.asCol (m ((c.tc : Thread Cert.KernelIdeal.nD Cert.KernelIdeal.τ).loc Cert.KernelIdeal.main_arg4))) (Cert.KernelIdeal.Results.wrapCol (m ((c.tc : Thread Cert.KernelIdeal.nD Cert.KernelIdeal.τ).loc Cert.KernelIdeal.main_arg4)))
    (Cert.KernelIdeal.Results.wrapCol (m ((c.tc : Thread Cert.KernelIdeal.nD Cert.KernelIdeal.τ).loc Cert.KernelIdeal.main_arg5)))

/-- From memories agreeing on the arguments both programs end with `Routing.messages` and `Routing.newWeights` of the
    argument arrays in their two result buffers: the index columns the two programs build are one term of the index
    arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => out0 m c, fun c => out1 m c, ?_, ?_⟩
  · exact (θ_run Cert.KernelIdeal.defs _ _).mono
      (fun r h c => ⟨(h c).1.trans (Cert.KernelIdeal.Results.result0 m ρ c),
        (h c).2.1.trans (Cert.KernelIdeal.Results.result1 m ρ c), (h c).2.2⟩)
      (Cert.KernelIdeal.NamedRun.run_named (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v82_eq, Cert.ReferenceIdeal.Results.out0_eq,
        (hagree c).1, (hagree c).2.1, (hagree c).2.2.2.2.1, (hagree c).2.2.2.2.2]
      rfl
    · rw [(h c).2.1, Cert.ReferenceIdeal.Read.val_main_v81_eq, Cert.ReferenceIdeal.Results.out1_eq,
        (hagree c).1, (hagree c).2.1, (hagree c).2.2.2.2.1, (hagree c).2.2.2.2.2]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
